-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x2048 : Shape := ⟨2, ![1024, 2048]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part4 {F : FTy → Type} [FloatOps F] (main_arg14 : FVec F S1024x1024 .f32) (main_arg15 : FVec F S1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  main_v78

def fn_part3 {F : FTy → Type} [FloatOps F] (main_arg11 : FVec F S1024 .f32) (main_arg12 : FVec F S1024x1024 .f32) (main_arg13 : FVec F S1024 .f32) (main_arg14 : FVec F S1024x1024 .f32) (main_arg15 : FVec F S1024 .f32) (main_v48 : IVec S_ 1) (main_v49 : FVec F S1024x2048 .f32) (main_v50 : FVec F S1024x2048 .f32) : IVec S_ 1 :=
  let main_v51 : IVec S1024x2048 1 := cmpf .olt main_v49 main_v50
  let main_c_19 : IVec S_ 1 := constantI S_ 1 1#1
  let main_v52 : IVec S_ 1 := (fun x v => Host.reduce IntOp.andi x v reducesTo_S1024x2048_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_v63 main_v67

def fn_part2 {F : FTy → Type} [FloatOps F] (main_arg7 : FVec F S1024 .f32) (main_arg8 : FVec F S1024x2048 .f32) (main_arg9 : FVec F S1024 .f32) (main_arg10 : FVec F S1024x2048 .f32) (main_arg11 : FVec F S1024 .f32) (main_arg12 : FVec F S1024x1024 .f32) (main_arg13 : FVec F S1024 .f32) (main_arg14 : FVec F S1024x1024 .f32) (main_arg15 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x2048 .f32 := Host.absf main_arg8
  let main_cst_14 : FVec F S_ .f32 := constant S_ .f32 0x7F800000#32
  let main_v40 : FVec F S1024x2048 .f32 := broadcastInDim S1024x2048 ![] bcast_S_S1024x2048 main_cst_14
  let main_v41 : IVec S1024x2048 1 := cmpf .olt main_v39 main_v40
  let main_c_15 : IVec S_ 1 := constantI S_ 1 1#1
  let main_v42 : IVec S_ 1 := (fun x v => Host.reduce IntOp.andi x v reducesTo_S1024x2048_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x2048 .f32 := Host.absf main_arg10
  let main_cst_18 : FVec F S_ .f32 := constant S_ .f32 0x7F800000#32
  let main_v50 : FVec F S1024x2048 .f32 := broadcastInDim S1024x2048 ![] bcast_S_S1024x2048 main_cst_18
  fn_part3 (F := F) main_arg11 main_arg12 main_arg13 main_arg14 main_arg15 main_v48 main_v49 main_v50

def fn_part1 {F : FTy → Type} [FloatOps F] (main_arg4 : FVec F S1024x2048 .f32) (main_arg5 : FVec F S1024 .f32) (main_arg6 : FVec F S1024x2048 .f32) (main_arg7 : FVec F S1024 .f32) (main_arg8 : FVec F S1024x2048 .f32) (main_arg9 : FVec F S1024 .f32) (main_arg10 : FVec F S1024x2048 .f32) (main_arg11 : FVec F S1024 .f32) (main_arg12 : FVec F S1024x1024 .f32) (main_arg13 : FVec F S1024 .f32) (main_arg14 : FVec F S1024x1024 .f32) (main_arg15 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S1024x2048 .f32) (main_arg5 : FVec F S1024 .f32) (main_arg6 : FVec F S1024x2048 .f32) (main_arg7 : FVec F S1024 .f32) (main_arg8 : FVec F S1024x2048 .f32) (main_arg9 : FVec F S1024 .f32) (main_arg10 : FVec F S1024x2048 .f32) (main_arg11 : FVec F S1024 .f32) (main_arg12 : FVec F S1024x1024 .f32) (main_arg13 : FVec F S1024 .f32) (main_arg14 : FVec F S1024x1024 .f32) (main_arg15 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4096x1024 : Shape := ⟨2, ![4096, 1024]⟩
abbrev S1024x2048 : Shape := ⟨2, ![1024, 2048]⟩
abbrev S1024 : Shape := ⟨1, ![1024]⟩
abbrev S1024x1024 : Shape := ⟨2, ![1024, 1024]⟩
abbrev S1x1024 : Shape := ⟨2, ![1, 1024]⟩
abbrev S128x1024 : Shape := ⟨2, ![128, 1024]⟩

abbrev nBuf : Space → Nat
  | .hbm => 43
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024x2048, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S1024x2048, .f32⟩
  | .hbm, ⟨9, _⟩ => ⟨S1024, .f32⟩
  | .hbm, ⟨10, _⟩ => ⟨S1024x2048, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .bf16⟩
  | .hbm, ⟨28, _⟩ => ⟨S1024x1024, .f32⟩
  | .hbm, ⟨29, _⟩ => ⟨S1024x1024, .bf16⟩
  | .hbm, ⟨30, _⟩ => ⟨S1024x1024, .f32⟩
  | .hbm, ⟨31, _⟩ => ⟨S1024x1024, .bf16⟩
  | .hbm, ⟨32, _⟩ => ⟨S1024x1024, .bf16⟩
  | .hbm, ⟨33, _⟩ => ⟨S1024x1024, .bf16⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1024x1024, .bf16⟩
  | .local _ .vmem, ⟨21, _⟩ => ⟨S1x1024, .f32⟩
  | .local _ .vmem, ⟨22, _⟩ => ⟨S1024x1024, .bf16⟩
  | .local _ .vmem, ⟨23, _⟩ => ⟨S1x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_v24_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S128x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S128x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S128x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

class Facts₀ : Prop where
  slices_S1024x2048_S1024x1024_0_0 : S1024x2048.Slices ![0, 0] S1024x1024
  bitsLt_bf16_f32 : FTy.bits .bf16 < FTy.bits .f32
  slices_S1024x2048_S1024x1024_0_1024 : S1024x2048.Slices ![0, 1024] S1024x1024
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  natLt_1_32 : 1 < 32
  dot_S128x1024_S1024x1024_S128x1024_1_1_0_0_n_n_wf : DotDims.WF S128x1024 S1024x1024 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S4096x1024.size a
  hwx0_3 : ∀ i : grid0.Coords, EltTy.bits .f32 = 32 ∨ (Rect.block (s := S4096x1024) S128x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x1024.size a ≤ S1024x1024.size a
  hwx0_13 : ∀ i : grid0.Coords, EltTy.bits .bf16 = 32 ∨ (Rect.block (s := S1024x1024) S1024x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024x1024.size a ≤ S1024x1024.size a
  hwx0_14 : ∀ i : grid0.Coords, EltTy.bits .bf16 = 32 ∨ (Rect.block (s := S1024x1024) S1024x1024.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1024.size a ≤ S1x1024.size a
  hwx0_15 : ∀ i : grid0.Coords, EltTy.bits .f32 = 32 ∨ (Rect.block (s := S1x1024) S1x1024.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1024x1024.size a ≤ S1024x1024.size a
  hwx0_16 : ∀ i : grid0.Coords, EltTy.bits .bf16 = 32 ∨ (Rect.block (s := S1024x1024) S1024x1024.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1024.size a ≤ S1x1024.size a
  hwx0_17 : ∀ i : grid0.Coords, EltTy.bits .f32 = 32 ∨ (Rect.block (s := S1x1024) S1x1024.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1024x1024.size a ≤ S1024x1024.size a
  hwx0_18 : ∀ i : grid0.Coords, EltTy.bits .bf16 = 32 ∨ (Rect.block (s := S1024x1024) S1024x1024.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1024.size a ≤ S1x1024.size a
  hwx0_19 : ∀ i : grid0.Coords, EltTy.bits .f32 = 32 ∨ (Rect.block (s := S1x1024) S1x1024.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S128x1024.size a ≤ S4096x1024.size a
  hwx0_20 : ∀ i : grid0.Coords, EltTy.bits .f32 = 32 ∨ (Rect.block (s := S4096x1024) S128x1024.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S128x1024.size a ≤ S4096x1024.size a
  hwx0_21 : ∀ i : grid0.Coords, EltTy.bits .f32 = 32 ∨ (Rect.block (s := S4096x1024) S128x1024.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S128x1024.size a ≤ S4096x1024.size a
  hwx0_22 : ∀ i : grid0.Coords, EltTy.bits .f32 = 32 ∨ (Rect.block (s := S4096x1024) S128x1024.size (cc0_transform_22 i) (hinb0_22 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v20) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S1024x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v15) S1024x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v21) S1x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v16) S1024x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v22) S1x1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v17) S1024x1024.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v23) S1x1024.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v24_0) S128x1024.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v24_1) S128x1024.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v24_2) S128x1024.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x2048 : Shape := ⟨2, ![1024, 2048]⟩
abbrev S1024 : Shape := ⟨1, ![1024]⟩
abbrev S1024x1024 : Shape := ⟨2, ![1024, 1024]⟩
abbrev S4096x2048 : Shape := ⟨2, ![4096, 2048]⟩
abbrev S1x1024 : Shape := ⟨2, ![1, 1024]⟩
abbrev S_ : Shape := ⟨0, ![]⟩
abbrev S2048x1024 : Shape := ⟨2, ![2048, 1024]⟩

abbrev nBuf : Space → Nat
  | .hbm => 114
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024x2048, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S1024x2048, .f32⟩
  | .hbm, ⟨9, _⟩ => ⟨S1024, .f32⟩
  | .hbm, ⟨10, _⟩ => ⟨S1024x2048, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S4096x2048, .f32⟩
  | .hbm, ⟨17, _⟩ => ⟨S1024x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S1024x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S2048x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .i1⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S2048x1024, .f32⟩
  | .hbm, ⟨73, _⟩ => ⟨S4096x1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x2048, .f32⟩
  | .hbm, ⟨88, _⟩ => ⟨S2048x1024, .f32⟩
  | .hbm, ⟨89, _⟩ => ⟨S4096x1024, .f32⟩
  | .hbm, ⟨90, _⟩ => ⟨S1x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S2048x1024, .f32⟩
  | .hbm, ⟨95, _⟩ => ⟨S4096x1024, .f32⟩
  | .hbm, ⟨96, _⟩ => ⟨S1x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S4096x1024, .f32⟩
  | .hbm, ⟨103, _⟩ => ⟨S4096x1024, .f32⟩
  | .hbm, ⟨104, _⟩ => ⟨S_, .f32⟩
  | .hbm, ⟨105, _⟩ => ⟨S4096x1024, .f32⟩
  | .hbm, ⟨106, _⟩ => ⟨S4096x1024, .f32⟩
  | .hbm, ⟨107, _⟩ => ⟨S_, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call0_cst : Ref sig .tc := ⟨.hbm, 50, rfl⟩
abbrev main_call0_v0 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_5 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_7 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_9 : Ref sig .tc := ⟨.hbm, 101, rfl⟩
abbrev main_v73 : Ref sig .tc := ⟨.hbm, 102, rfl⟩
abbrev main_v74 : Ref sig .tc := ⟨.hbm, 103, rfl⟩
abbrev main_cst_10 : Ref sig .tc := ⟨.hbm, 104, rfl⟩
abbrev main_v75 : Ref sig .tc := ⟨.hbm, 105, rfl⟩
abbrev main_v76 : Ref sig .tc := ⟨.hbm, 106, rfl⟩
abbrev main_cst_11 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  transposes_S1024x2048_S2048x1024_1_0 : S1024x2048.Transposes [1, 0] S2048x1024
  dot_S4096x1024_S1024x1024_S4096x1024_1_0_0_1_n_n_wf : DotDims.WF S4096x1024 S1024x1024 S4096x1024 [1] [0] [0] [1] [] []
  dot_S4096x2048_S2048x1024_S4096x1024_1_0_0_1_n_n_wf : DotDims.WF S4096x2048 S2048x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf

class Facts : Prop extends Facts₀ where

variable [Facts]
-- ==== Proof.Cell.lean ====
/-
  The gated recurrent cell both programs compute, written once over the extended reals.

  One batch row at a time: from a row `x` of the input, the rows `h`, `e`, `t` of the hidden state, the excited
  cell and the time cell (each 1024 long), and twelve weight arrays, the cell produces three new rows. A linear
  layer over the joined row `[x, h]` with a weight `W : [1024, 2048]` is the sum of two contractions of length
  1024, one with the weight's left half against `x` and one with its right half against `h`; that is how the
  layers are written here (`lin2`), over the two halves as separate square arrays (`leftHalf`, `rightHalf`).
  `sum_halves` is the law that makes a contraction of length 2048 those two sums; it holds in every commutative
  additive monoid, so no entry needs to be finite.

  Then, column by column (`j`):
    up      = tanh (lin2 Wt [x, h])
    tNew    = σ (lin1 Wr x) · max (t + up) 0 − 1
    leap    = 1 if tNew ≤ 0 else 0
    tOut    = (1 − leap) · tNew
    energy  = leap · e
    eOut    = e − energy + σ (lin1 Wi x) · (1 − leap) + σ (lin2 Wa [x, h])
    hState  = tanh (lin2 We [x, h · energy])
    g       = σ (lin2 Wh [x, h])
    hOut    = tanh ((1 − g) · h + g · hState)
  with σ the logistic function `1 / (1 + e⁻ᶻ)`.
-/
import Idealize.ShloMosaic.PureOps.Ideal
import Idealize.ShloMosaic.Lib.ValueIdx
import Mathlib.Algebra.BigOperators.Fin

noncomputable section

namespace Cert.GatedCell

open Idealize.ShloMosaic Idealize.ShloMosaic.ValueIdx

/-- One row of 1024 extended reals. -/
abbrev Row := Fin 1024 → EReal
/-- Indices of a square weight `[1024, 1024]`, of a joined weight `[1024, 2048]`, of a bias `[1024]`, of a bias
    kept as one row `[1, 1024]`, of a batch array `[4096, 1024]` and of a block of 128 batch rows. -/
abbrev SqIdx := (⟨2, ![1024, 1024]⟩ : Shape).Idx
abbrev WideIdx := (⟨2, ![1024, 2048]⟩ : Shape).Idx
abbrev BiasIdx := (⟨1, ![1024]⟩ : Shape).Idx
abbrev BiasRowIdx := (⟨2, ![1, 1024]⟩ : Shape).Idx
abbrev BatchIdx := (⟨2, ![4096, 1024]⟩ : Shape).Idx
abbrev BlockIdx := (⟨2, ![128, 1024]⟩ : Shape).Idx

/-- Column `k` of the left half of a joined axis of length 2048, and of its right half. -/
def lo (k : Fin 1024) : Fin 2048 := ⟨k.val, by omega⟩
def hi (k : Fin 1024) : Fin 2048 := ⟨1024 + k.val, by omega⟩

@[simp] theorem lo_val (k : Fin 1024) : (lo k).val = k.val := rfl
@[simp] theorem hi_val (k : Fin 1024) : (hi k).val = 1024 + k.val := rfl

/-- A sum over the joined axis is the sum over its left half plus the sum over its right half. -/
theorem sum_halves {M : Type*} [AddCommMonoid M] (f : Fin 2048 → M) :
    ∑ k : Fin 2048, f k = ∑ k : Fin 1024, f (lo k) + ∑ k : Fin 1024, f (hi k) := by
  exact Fin.sum_univ_add (a := 1024) (b := 1024) (f : Fin (1024 + 1024) → M)

/-- The left and the right half of a joined weight, as square arrays. -/
def leftHalf (W : WideIdx → EReal) : SqIdx → EReal := fun i => W (ix2 (i 0) (lo (i 1)))
def rightHalf (W : WideIdx → EReal) : SqIdx → EReal := fun i => W (ix2 (i 0) (hi (i 1)))
/-- A bias as one row `[1, 1024]` read as a bias `[1024]`, and back. -/
def ofBiasRow (b : BiasRowIdx → EReal) : BiasIdx → EReal := fun i => b (ix2 (0 : Fin 1) (i 0))

/-- The twelve weight arrays, a joined weight already cut in its two halves. -/
structure Params where
  Wtx : SqIdx → EReal
  Wth : SqIdx → EReal
  bt : BiasIdx → EReal
  Wax : SqIdx → EReal
  Wah : SqIdx → EReal
  ba : BiasIdx → EReal
  Wex : SqIdx → EReal
  Weh : SqIdx → EReal
  be : BiasIdx → EReal
  Whx : SqIdx → EReal
  Whh : SqIdx → EReal
  bh : BiasIdx → EReal
  Wr : SqIdx → EReal
  br : BiasIdx → EReal
  Wi : SqIdx → EReal
  bi : BiasIdx → EReal

/-- The parameters from the twelve argument arrays as the two programs receive them. -/
def Params.ofArgs (Wt : WideIdx → EReal) (bt : BiasIdx → EReal) (Wa : WideIdx → EReal) (ba : BiasIdx → EReal)
    (We : WideIdx → EReal) (be : BiasIdx → EReal) (Wh : WideIdx → EReal) (bh : BiasIdx → EReal)
    (Wr : SqIdx → EReal) (br : BiasIdx → EReal) (Wi : SqIdx → EReal) (bi : BiasIdx → EReal) : Params :=
  ⟨leftHalf Wt, rightHalf Wt, bt, leftHalf Wa, rightHalf Wa, ba, leftHalf We, rightHalf We, be,
   leftHalf Wh, rightHalf Wh, bh, Wr, br, Wi, bi⟩

/-- The parameters from sixteen arrays already cut and laid out for the cell: each joined weight as its two square
    halves, each bias as one row `[1, 1024]`; in the order time, absorb, state, gate, ratio, initial energy. -/
def Params.ofBlocks (wtx wth : SqIdx → EReal) (bt : BiasRowIdx → EReal) (wax wah : SqIdx → EReal) (ba : BiasRowIdx → EReal)
    (wex weh : SqIdx → EReal) (be : BiasRowIdx → EReal) (whx whh : SqIdx → EReal) (bh : BiasRowIdx → EReal)
    (wr : SqIdx → EReal) (br : BiasRowIdx → EReal) (wi : SqIdx → EReal) (bi : BiasRowIdx → EReal) : Params :=
  ⟨wtx, wth, ofBiasRow bt, wax, wah, ofBiasRow ba, wex, weh, ofBiasRow be, whx, whh, ofBiasRow bh,
   wr, ofBiasRow br, wi, ofBiasRow bi⟩

/-- `x · W[j, :]`: a row against row `j` of a square weight. -/
def dot (W : SqIdx → EReal) (x : Row) (j : Fin 1024) : EReal := ∑ k : Fin 1024, x k * W (ix2 j k)

/-- A linear layer over `x` alone. -/
def lin1 (W : SqIdx → EReal) (b : BiasIdx → EReal) (x : Row) (j : Fin 1024) : EReal := dot W x j + b (ix1 j)

/-- A linear layer over the joined row `[x, h]`, its weight in halves. -/
def lin2 (Wx Wh : SqIdx → EReal) (b : BiasIdx → EReal) (x h : Row) (j : Fin 1024) : EReal :=
  dot Wx x j + dot Wh h j + b (ix1 j)

/-- The condition `z ≤ 0` as the number 1 or 0. -/
def ind (z : EReal) : EReal := (((Ideal.cmp .ole z 0).toNat : ℝ) : EReal)

variable (P : Params) (x h e t : Row)

def tNew (j : Fin 1024) : EReal :=
  Ideal.logistic (lin1 P.Wr P.br x j) * max (t j + Ideal.tanh (lin2 P.Wtx P.Wth P.bt x h j)) 0 - 1

def leap (j : Fin 1024) : EReal := ind (tNew P x h t j)

/-- The new time cell. -/
def tOut (j : Fin 1024) : EReal := (1 - leap P x h t j) * tNew P x h t j

def energy (j : Fin 1024) : EReal := leap P x h t j * e j

/-- The new excited cell. -/
def eOut (j : Fin 1024) : EReal :=
  e j - energy P x h e t j + Ideal.logistic (lin1 P.Wi P.bi x j) * (1 - leap P x h t j)
    + Ideal.logistic (lin2 P.Wax P.Wah P.ba x h j)

def hState (j : Fin 1024) : EReal :=
  Ideal.tanh (lin2 P.Wex P.Weh P.be x (fun k => h k * energy P x h e t k) j)

def gate (j : Fin 1024) : EReal := Ideal.logistic (lin2 P.Whx P.Whh P.bh x h j)

/-- The new hidden state. -/
def hOut (j : Fin 1024) : EReal :=
  Ideal.tanh ((1 - gate P x h j) * h j + gate P x h j * hState P x h e t j)

/-- Row `r` of a batch array, and row `p` of a block of 128 rows. -/
def rowOf (A : BatchIdx → EReal) (r : Fin 4096) : Row := fun k => A (ix2 r k)
def blockRow (B : BlockIdx → EReal) (p : Fin 128) : Row := fun k => B (ix2 p k)

/-- The three result arrays, row by row. -/
def hOutArr (X H E T : BatchIdx → EReal) : BatchIdx → EReal := fun i =>
  hOut P (rowOf X (i 0)) (rowOf H (i 0)) (rowOf E (i 0)) (rowOf T (i 0)) (i 1)
def eOutArr (X H E T : BatchIdx → EReal) : BatchIdx → EReal := fun i =>
  eOut P (rowOf X (i 0)) (rowOf H (i 0)) (rowOf E (i 0)) (rowOf T (i 0)) (i 1)
def tOutArr (X H T : BatchIdx → EReal) : BatchIdx → EReal := fun i =>
  tOut P (rowOf X (i 0)) (rowOf H (i 0)) (rowOf T (i 0)) (i 1)

/-- Row `128 · b + p` of a batch array is row `p` of its block `b`. -/
def blockOf (A : BatchIdx → EReal) (b : Fin 32) : BlockIdx → EReal := fun y =>
  A (ix2 (⟨128 * b.val + (y 0).val, by have := b.isLt; have h0 : (y 0).val < 128 := (y 0).isLt; omega⟩ : Fin 4096) (y 1))

theorem rowOf_block (A : BatchIdx → EReal) (b : Fin 32) (p : Fin 128) :
    rowOf A ⟨128 * b.val + p.val, by have := b.isLt; have := p.isLt; omega⟩ = blockRow (blockOf A b) p := rfl

end Cert.GatedCell

end
-- ==== Proof.RefCell.lean ====
/-
  The reference program computes the gated cell of the shared specification: each of its three results, read at a
  batch index, is the specification's row function at that row and column.

  The road: a constant array is the number 1 or 0 everywhere; a bias broadcast over the batch is the bias at the
  column; a contraction against a transposed square weight is the specification's `dot`; a contraction of length
  2048 of a joined row against a transposed joined weight splits, by `sum_halves`, into the two `dot`s against the
  weight's halves; the logistic function spelled with negate, exponential, add and divide is the logistic function by
  definition. Then the element-wise stages follow the specification line by line.
-/
import proofs.«138929_j4337916969454_1_alg».proof.Proof.Gen.ReferenceIdeal.Read
import proofs.«138929_j4337916969454_1_alg».proof.Proof.Cell
import Idealize.ShloMosaic.Lib.IdealHost
import Idealize.ShloMosaic.Lib.Pipeline.Value
import Idealize.ShloMosaic.Lib.ValueIdx
import Idealize.ShloMosaic.PureOps.Ideal.Laws

noncomputable section

namespace Cert.ReferenceIdeal.RefCell

open Cert.ReferenceIdeal Cert.ReferenceIdeal.Gen Idealize.ShloMosaic Idealize.ShloMosaic.ValueIdx Cert.GatedCell

/-- The arrays the reference receives: a batch array, a joined weight, a square weight, a bias. -/
abbrev B := (⟨S4096x1024, .f32⟩ : BufTy).Contents (Elt Ideal)
abbrev W := (⟨S1024x2048, .f32⟩ : BufTy).Contents (Elt Ideal)
abbrev Q := (⟨S1024x1024, .f32⟩ : BufTy).Contents (Elt Ideal)
abbrev V := (⟨S1024, .f32⟩ : BufTy).Contents (Elt Ideal)

/-! ## Constants -/

theorem one_bits : FloatOps.ofBits (F := Ideal) .f32 0x3F800000#32 = (1 : EReal) := Ideal.ofBits_one_f32
theorem zero_bits : FloatOps.ofBits (F := Ideal) .f32 0x00000000#32 = (0 : EReal) := Ideal.ofBits_zero_f32

theorem v8_one (i : S4096x1024.Idx) : Read.val_main_v8 (F := Ideal) i = (1 : EReal) := by
  rw [Read.val_main_v8_apply, Read.val_main_cst_apply]; exact one_bits
theorem v10_one (i : S4096x1024.Idx) : Read.val_main_v10 (F := Ideal) i = (1 : EReal) := by
  rw [Read.val_main_v10_apply, Read.val_main_cst_0_apply]; exact one_bits
theorem v19_one (i : S4096x1024.Idx) : Read.val_main_v19 (F := Ideal) i = (1 : EReal) := by
  rw [Read.val_main_v19_apply, Read.val_main_cst_1_apply]; exact one_bits
theorem v21_one (i : S4096x1024.Idx) : Read.val_main_v21 (F := Ideal) i = (1 : EReal) := by
  rw [Read.val_main_v21_apply, Read.val_main_cst_2_apply]; exact one_bits
theorem v32_one (i : S4096x1024.Idx) : Read.val_main_v32 (F := Ideal) i = (1 : EReal) := by
  rw [Read.val_main_v32_apply, Read.val_main_cst_3_apply]; exact one_bits
theorem v37_one (i : S4096x1024.Idx) : Read.val_main_v37 (F := Ideal) i = (1 : EReal) := by
  rw [Read.val_main_v37_apply, Read.val_main_cst_5_apply]; exact one_bits
theorem v42_one (i : S4096x1024.Idx) : Read.val_main_v42 (F := Ideal) i = (1 : EReal) := by
  rw [Read.val_main_v42_apply, Read.val_main_cst_6_apply]; exact one_bits
theorem v53_one (i : S4096x1024.Idx) : Read.val_main_v53 (F := Ideal) i = (1 : EReal) := by
  rw [Read.val_main_v53_apply, Read.val_main_cst_7_apply]; exact one_bits
theorem v55_one (i : S4096x1024.Idx) : Read.val_main_v55 (F := Ideal) i = (1 : EReal) := by
  rw [Read.val_main_v55_apply, Read.val_main_cst_8_apply]; exact one_bits
theorem v73_one (i : S4096x1024.Idx) : Read.val_main_v73 (F := Ideal) i = (1 : EReal) := by
  rw [Read.val_main_v73_apply, Read.val_main_cst_9_apply]; exact one_bits
theorem v75_one (i : S4096x1024.Idx) : Read.val_main_v75 (F := Ideal) i = (1 : EReal) := by
  rw [Read.val_main_v75_apply, Read.val_main_cst_10_apply]; exact one_bits
theorem v77_one (i : S4096x1024.Idx) : Read.val_main_v77 (F := Ideal) i = (1 : EReal) := by
  rw [Read.val_main_v77_apply, Read.val_main_cst_11_apply]; exact one_bits
theorem relu_zero (i : S4096x1024.Idx) : Read.val_main_call0_v0 (F := Ideal) i = (0 : EReal) := by
  rw [Read.val_main_call0_v0_apply, Read.val_main_call0_cst_apply]; exact zero_bits
theorem v34_zero (i : S4096x1024.Idx) : Read.val_main_v34 (F := Ideal) i = (0 : EReal) := by
  rw [Read.val_main_v34_apply, Read.val_main_cst_4_apply]; exact zero_bits

/-! ## Biases: a bias broadcast over the batch is the bias at the column -/

theorem bias_idx (i : S4096x1024.Idx) :
    (fun a : Fin S1024.rank => match a with | ⟨0, _⟩ => (⟨(i 1).val, (i 1).isLt⟩ : Fin 1024)) = ix1 (i 1) :=
  funext fun a => match a with | ⟨0, _⟩ => rfl

theorem v4_bias (x15 : V) (i : S4096x1024.Idx) : Read.val_main_v4 (F := Ideal) x15 i = x15 (ix1 (i 1)) := by
  rw [Read.val_main_v4_apply, Read.val_main_v3_apply]
  exact congrArg x15 (funext fun a => match a with | ⟨0, _⟩ => rfl)
theorem v15_bias (x13 : V) (i : S4096x1024.Idx) : Read.val_main_v15 (F := Ideal) x13 i = x13 (ix1 (i 1)) := by
  rw [Read.val_main_v15_apply, Read.val_main_v14_apply]
  exact congrArg x13 (funext fun a => match a with | ⟨0, _⟩ => rfl)
theorem v26_bias (x5 : V) (i : S4096x1024.Idx) : Read.val_main_v26 (F := Ideal) x5 i = x5 (ix1 (i 1)) := by
  rw [Read.val_main_v26_apply, Read.val_main_v25_apply]
  exact congrArg x5 (funext fun a => match a with | ⟨0, _⟩ => rfl)
theorem v49_bias (x7 : V) (i : S4096x1024.Idx) : Read.val_main_v49 (F := Ideal) x7 i = x7 (ix1 (i 1)) := by
  rw [Read.val_main_v49_apply, Read.val_main_v48_apply]
  exact congrArg x7 (funext fun a => match a with | ⟨0, _⟩ => rfl)
theorem v63_bias (x9 : V) (i : S4096x1024.Idx) : Read.val_main_v63 (F := Ideal) x9 i = x9 (ix1 (i 1)) := by
  rw [Read.val_main_v63_apply, Read.val_main_v62_apply]
  exact congrArg x9 (funext fun a => match a with | ⟨0, _⟩ => rfl)
theorem v69_bias (x11 : V) (i : S4096x1024.Idx) : Read.val_main_v69 (F := Ideal) x11 i = x11 (ix1 (i 1)) := by
  rw [Read.val_main_v69_apply, Read.val_main_v68_apply]
  exact congrArg x11 (funext fun a => match a with | ⟨0, _⟩ => rfl)

/-! ## A contraction against a transposed square weight -/

theorem v2_dot (x0 : B) (x14 : Q) (i : S4096x1024.Idx) :
    Read.val_main_v2 (F := Ideal) x0 x14 i = dot x14 (rowOf x0 (i 0)) (i 1) := by
  rw [Read.val_main_v2_apply]
  unfold dot rowOf
  refine Finset.sum_congr rfl fun k _ => ?_
  rw [Read.val_main_v1_apply]
  congr 1
  · exact congrArg x0 (funext fun a => match a with | ⟨0, _⟩ => rfl | ⟨1, _⟩ => rfl)
  · exact congrArg x14 (funext fun a => match a with | ⟨0, _⟩ => rfl | ⟨1, _⟩ => rfl)

theorem v13_dot (x0 : B) (x12 : Q) (i : S4096x1024.Idx) :
    Read.val_main_v13 (F := Ideal) x0 x12 i = dot x12 (rowOf x0 (i 0)) (i 1) := by
  rw [Read.val_main_v13_apply]
  unfold dot rowOf
  refine Finset.sum_congr rfl fun k _ => ?_
  rw [Read.val_main_v12_apply]
  congr 1
  · exact congrArg x0 (funext fun a => match a with | ⟨0, _⟩ => rfl | ⟨1, _⟩ => rfl)
  · exact congrArg x12 (funext fun a => match a with | ⟨0, _⟩ => rfl | ⟨1, _⟩ => rfl)

/-! ## The joined row: a column below 1024 is the first piece's, column `1024 + k` the second piece's at `k` -/

theorem concat_lo (a b : B) (r : Fin 4096) (k : Fin 1024) (j : S4096x2048.Idx)
    (h0 : (j 0).val = r.val) (h1 : (j 1).val = k.val) :
    concatenate S4096x2048 1 [⟨S4096x1024, a⟩, ⟨S4096x1024, b⟩]
      concatenates_S4096x1024_S4096x1024_S4096x2048_d1 j = a (ix2 r k) :=
  concatenate_pair_apply_left 1 a b concatenates_S4096x1024_S4096x1024_S4096x2048_d1 j rfl (ix2 r k)
    (fun c => match c with | ⟨0, _⟩ => h0.symm | ⟨1, _⟩ => h1.symm)

theorem concat_hi (a b : B) (r : Fin 4096) (k : Fin 1024) (j : S4096x2048.Idx)
    (h0 : (j 0).val = r.val) (h1 : (j 1).val = 1024 + k.val) :
    concatenate S4096x2048 1 [⟨S4096x1024, a⟩, ⟨S4096x1024, b⟩]
      concatenates_S4096x1024_S4096x1024_S4096x2048_d1 j = b (ix2 r k) :=
  concatenate_pair_apply_right 1 a b concatenates_S4096x1024_S4096x1024_S4096x2048_d1 j rfl rfl (ix2 r k)
    (fun c => match c with
      | ⟨0, _⟩ => fun _ => h0.symm
      | ⟨1, _⟩ => fun hc => absurd rfl hc)
    (by show k.val + 1024 = (j 1).val; omega)

/-- A contraction of length 2048 of the joined row `[a, b]` against a transposed joined weight is the sum of the two
    contractions of length 1024 against the weight's halves. -/
theorem joined_dot (a b : B) (w : W) (i : S4096x1024.Idx) :
    ∑ k : Fin 2048,
      (concatenate S4096x2048 1 [⟨S4096x1024, a⟩, ⟨S4096x1024, b⟩]
        concatenates_S4096x1024_S4096x1024_S4096x2048_d1) (Read.lidx_main_v24 i k)
        * w (Read.idx_main_v23 (Read.ridx_main_v24 i k))
      = dot (leftHalf w) (rowOf a (i 0)) (i 1) + dot (rightHalf w) (rowOf b (i 0)) (i 1) := by
  rw [sum_halves]
  unfold dot rowOf leftHalf rightHalf
  congr 1
  · refine Finset.sum_congr rfl fun k _ => ?_
    rw [concat_lo a b (i 0) k _ rfl rfl]
    congr 1
    exact congrArg w (funext fun c => match c with | ⟨0, _⟩ => rfl | ⟨1, _⟩ => rfl)
  · refine Finset.sum_congr rfl fun k _ => ?_
    rw [concat_hi a b (i 0) k _ rfl rfl]
    congr 1
    exact congrArg w (funext fun c => match c with | ⟨0, _⟩ => rfl | ⟨1, _⟩ => rfl)

/-! ## The six linear layers at an index -/

theorem v5_lin (x0 : B) (x14 : Q) (x15 : V) (i : S4096x1024.Idx) :
    Read.val_main_v5 (F := Ideal) x0 x14 x15 i = lin1 x14 x15 (rowOf x0 (i 0)) (i 1) := by
  rw [Read.val_main_v5_apply, v2_dot, v4_bias]; rfl

theorem v16_lin (x0 : B) (x12 : Q) (x13 : V) (i : S4096x1024.Idx) :
    Read.val_main_v16 (F := Ideal) x0 x12 x13 i = lin1 x12 x13 (rowOf x0 (i 0)) (i 1) := by
  rw [Read.val_main_v16_apply, v13_dot, v15_bias]; rfl

theorem v27_lin (x0 x1 : B) (x4 : W) (x5 : V) (i : S4096x1024.Idx) :
    Read.val_main_v27 (F := Ideal) x0 x1 x4 x5 i
      = lin2 (leftHalf x4) (rightHalf x4) x5 (rowOf x0 (i 0)) (rowOf x1 (i 0)) (i 1) := by
  rw [Read.val_main_v27_apply, v26_bias, Read.val_main_v24_apply]
  have h : ∑ k : Fin 2048, (Read.val_main_v0 (F := Ideal) x0 x1) (Read.lidx_main_v24 i k)
        * (Read.val_main_v23 (F := Ideal) x4) (Read.ridx_main_v24 i k)
      = dot (leftHalf x4) (rowOf x0 (i 0)) (i 1) + dot (rightHalf x4) (rowOf x1 (i 0)) (i 1) := by
    rw [← joined_dot x0 x1 x4 i]
    refine Finset.sum_congr rfl fun k _ => ?_
    rw [Read.val_main_v23_apply]; rfl
  rw [h]; rfl

theorem v50_lin (x0 x1 : B) (x6 : W) (x7 : V) (i : S4096x1024.Idx) :
    Read.val_main_v50 (F := Ideal) x0 x1 x6 x7 i
      = lin2 (leftHalf x6) (rightHalf x6) x7 (rowOf x0 (i 0)) (rowOf x1 (i 0)) (i 1) := by
  rw [Read.val_main_v50_apply, v49_bias, Read.val_main_v47_apply]
  have h : ∑ k : Fin 2048, (Read.val_main_v0 (F := Ideal) x0 x1) (Read.lidx_main_v47 i k)
        * (Read.val_main_v46 (F := Ideal) x6) (Read.ridx_main_v47 i k)
      = dot (leftHalf x6) (rowOf x0 (i 0)) (i 1) + dot (rightHalf x6) (rowOf x1 (i 0)) (i 1) := by
    rw [← joined_dot x0 x1 x6 i]
    refine Finset.sum_congr rfl fun k _ => ?_
    rw [Read.val_main_v46_apply]; rfl
  rw [h]; rfl

theorem v70_lin (x0 x1 : B) (x10 : W) (x11 : V) (i : S4096x1024.Idx) :
    Read.val_main_v70 (F := Ideal) x0 x1 x10 x11 i
      = lin2 (leftHalf x10) (rightHalf x10) x11 (rowOf x0 (i 0)) (rowOf x1 (i 0)) (i 1) := by
  rw [Read.val_main_v70_apply, v69_bias, Read.val_main_v67_apply]
  have h : ∑ k : Fin 2048, (Read.val_main_v0 (F := Ideal) x0 x1) (Read.lidx_main_v67 i k)
        * (Read.val_main_v66 (F := Ideal) x10) (Read.ridx_main_v67 i k)
      = dot (leftHalf x10) (rowOf x0 (i 0)) (i 1) + dot (rightHalf x10) (rowOf x1 (i 0)) (i 1) := by
    rw [← joined_dot x0 x1 x10 i]
    refine Finset.sum_congr rfl fun k _ => ?_
    rw [Read.val_main_v66_apply]; rfl
  rw [h]; rfl

/-! ## The element-wise stages, in the specification's order -/

/-- An array at an index is its row at the column. -/
theorem row_at (A : B) (i : S4096x1024.Idx) : A i = rowOf A (i 0) (i 1) := congrArg A (eq_ix2 i)

section Stages

variable (x0 x1 x2 x3 : B) (x4 : W) (x5 : V) (x6 : W) (x7 : V) (x8 : W) (x9 : V) (x10 : W) (x11 : V)
  (x12 : Q) (x13 : V) (x14 : Q) (x15 : V)

/-- The logistic function of the ratio layer. -/
theorem v22_sig (i : S4096x1024.Idx) :
    Read.val_main_v22 (F := Ideal) x0 x12 x13 i = Ideal.logistic (lin1 x12 x13 (rowOf x0 (i 0)) (i 1)) := by
  rw [Read.val_main_v22_apply, v21_one, Read.val_main_v20_apply, v19_one, Read.val_main_v18_apply,
    Read.val_main_v17_apply, v16_lin]; rfl

/-- The logistic function of the initial-energy layer. -/
theorem v11_sig (i : S4096x1024.Idx) :
    Read.val_main_v11 (F := Ideal) x0 x14 x15 i = Ideal.logistic (lin1 x14 x15 (rowOf x0 (i 0)) (i 1)) := by
  rw [Read.val_main_v11_apply, v10_one, Read.val_main_v9_apply, v8_one, Read.val_main_v7_apply,
    Read.val_main_v6_apply, v5_lin]; rfl

/-- The logistic function of the absorb layer. -/
theorem v56_sig (i : S4096x1024.Idx) :
    Read.val_main_v56 (F := Ideal) x0 x1 x6 x7 i
      = Ideal.logistic (lin2 (leftHalf x6) (rightHalf x6) x7 (rowOf x0 (i 0)) (rowOf x1 (i 0)) (i 1)) := by
  rw [Read.val_main_v56_apply, v55_one, Read.val_main_v54_apply, v53_one, Read.val_main_v52_apply,
    Read.val_main_v51_apply, v50_lin]; rfl

/-- The gate: the logistic function of the gate layer. -/
theorem v76_sig (i : S4096x1024.Idx) :
    Read.val_main_v76 (F := Ideal) x0 x1 x10 x11 i
      = Ideal.logistic (lin2 (leftHalf x10) (rightHalf x10) x11 (rowOf x0 (i 0)) (rowOf x1 (i 0)) (i 1)) := by
  rw [Read.val_main_v76_apply, v75_one, Read.val_main_v74_apply, v73_one, Read.val_main_v72_apply,
    Read.val_main_v71_apply, v70_lin]; rfl

/-- The new time before the leap. -/
theorem v33_tNew (i : S4096x1024.Idx) :
    Read.val_main_v33 (F := Ideal) x0 x1 x3 x4 x5 x12 x13 i
      = tNew (Params.ofArgs x4 x5 x6 x7 x8 x9 x10 x11 x12 x13 x14 x15)
          (rowOf x0 (i 0)) (rowOf x1 (i 0)) (rowOf x3 (i 0)) (i 1) := by
  rw [Read.val_main_v33_apply, v32_one, Read.val_main_v31_apply, v22_sig, Read.val_main_v30_apply, relu_zero,
    Read.val_main_v29_apply, Read.val_main_v28_apply, v27_lin, row_at x3 i]; rfl

/-- The leap indicator. -/
theorem v36_leap (i : S4096x1024.Idx) :
    Read.val_main_v36 (F := Ideal) x0 x1 x3 x4 x5 x12 x13 i
      = leap (Params.ofArgs x4 x5 x6 x7 x8 x9 x10 x11 x12 x13 x14 x15)
          (rowOf x0 (i 0)) (rowOf x1 (i 0)) (rowOf x3 (i 0)) (i 1) := by
  rw [Read.val_main_v36_apply, Read.val_main_v35_apply, v34_zero,
    v33_tNew x0 x1 x3 x4 x5 x6 x7 x8 x9 x10 x11 x12 x13 x14 x15]; rfl

/-- The new time cell. -/
theorem v39_tOut (i : S4096x1024.Idx) :
    Read.val_main_v39 (F := Ideal) x0 x1 x3 x4 x5 x12 x13 i
      = tOut (Params.ofArgs x4 x5 x6 x7 x8 x9 x10 x11 x12 x13 x14 x15)
          (rowOf x0 (i 0)) (rowOf x1 (i 0)) (rowOf x3 (i 0)) (i 1) := by
  rw [Read.val_main_v39_apply, Read.val_main_v38_apply, v37_one,
    v36_leap x0 x1 x3 x4 x5 x6 x7 x8 x9 x10 x11 x12 x13 x14 x15,
    v33_tNew x0 x1 x3 x4 x5 x6 x7 x8 x9 x10 x11 x12 x13 x14 x15]; rfl

/-- The energy released by the leap. -/
theorem v40_energy (i : S4096x1024.Idx) :
    Read.val_main_v40 (F := Ideal) x0 x1 x2 x3 x4 x5 x12 x13 i
      = energy (Params.ofArgs x4 x5 x6 x7 x8 x9 x10 x11 x12 x13 x14 x15)
          (rowOf x0 (i 0)) (rowOf x1 (i 0)) (rowOf x2 (i 0)) (rowOf x3 (i 0)) (i 1) := by
  rw [Read.val_main_v40_apply, v36_leap x0 x1 x3 x4 x5 x6 x7 x8 x9 x10 x11 x12 x13 x14 x15, row_at x2 i]; rfl

/-- The new excited cell. -/
theorem v57_eOut (i : S4096x1024.Idx) :
    Read.val_main_v57 (F := Ideal) x0 x1 x2 x3 x4 x5 x6 x7 x12 x13 x14 x15 i
      = eOut (Params.ofArgs x4 x5 x6 x7 x8 x9 x10 x11 x12 x13 x14 x15)
          (rowOf x0 (i 0)) (rowOf x1 (i 0)) (rowOf x2 (i 0)) (rowOf x3 (i 0)) (i 1) := by
  rw [Read.val_main_v57_apply, v56_sig, Read.val_main_v45_apply, Read.val_main_v44_apply, v11_sig,
    Read.val_main_v43_apply, v42_one, v36_leap x0 x1 x3 x4 x5 x6 x7 x8 x9 x10 x11 x12 x13 x14 x15,
    Read.val_main_v41_apply, v40_energy x0 x1 x2 x3 x4 x5 x6 x7 x8 x9 x10 x11 x12 x13 x14 x15, row_at x2 i]; rfl

/-- The hidden row times the energy, as the second half of the state layer's joined row. -/
theorem v58_row (r : Fin 4096) :
    rowOf (Read.val_main_v58 (F := Ideal) x0 x1 x2 x3 x4 x5 x12 x13) r
      = fun k => rowOf x1 r k * energy (Params.ofArgs x4 x5 x6 x7 x8 x9 x10 x11 x12 x13 x14 x15)
          (rowOf x0 r) (rowOf x1 r) (rowOf x2 r) (rowOf x3 r) k := by
  funext k
  show Read.val_main_v58 (F := Ideal) x0 x1 x2 x3 x4 x5 x12 x13 (ix2 r k) = _
  rw [Read.val_main_v58_apply, v40_energy x0 x1 x2 x3 x4 x5 x6 x7 x8 x9 x10 x11 x12 x13 x14 x15]; rfl

/-- The candidate state. -/
theorem v65_hState (i : S4096x1024.Idx) :
    Read.val_main_v65 (F := Ideal) x0 x1 x2 x3 x4 x5 x8 x9 x12 x13 i
      = hState (Params.ofArgs x4 x5 x6 x7 x8 x9 x10 x11 x12 x13 x14 x15)
          (rowOf x0 (i 0)) (rowOf x1 (i 0)) (rowOf x2 (i 0)) (rowOf x3 (i 0)) (i 1) := by
  rw [Read.val_main_v65_apply, Read.val_main_v64_apply, v63_bias, Read.val_main_v61_apply]
  have h : ∑ k : Fin 2048, (Read.val_main_v59 (F := Ideal) x0 x1 x2 x3 x4 x5 x12 x13) (Read.lidx_main_v61 i k)
        * (Read.val_main_v60 (F := Ideal) x8) (Read.ridx_main_v61 i k)
      = dot (leftHalf x8) (rowOf x0 (i 0)) (i 1)
        + dot (rightHalf x8) (rowOf (Read.val_main_v58 (F := Ideal) x0 x1 x2 x3 x4 x5 x12 x13) (i 0)) (i 1) := by
    rw [← joined_dot x0 (Read.val_main_v58 (F := Ideal) x0 x1 x2 x3 x4 x5 x12 x13) x8 i]
    refine Finset.sum_congr rfl fun k _ => ?_
    rw [Read.val_main_v60_apply]; rfl
  rw [h, v58_row x0 x1 x2 x3 x4 x5 x6 x7 x8 x9 x10 x11 x12 x13 x14 x15 (i 0)]; rfl

/-- The new hidden state. -/
theorem v82_hOut (i : S4096x1024.Idx) :
    Read.val_main_v82 (F := Ideal) x0 x1 x2 x3 x4 x5 x8 x9 x10 x11 x12 x13 i
      = hOut (Params.ofArgs x4 x5 x6 x7 x8 x9 x10 x11 x12 x13 x14 x15)
          (rowOf x0 (i 0)) (rowOf x1 (i 0)) (rowOf x2 (i 0)) (rowOf x3 (i 0)) (i 1) := by
  rw [Read.val_main_v82_apply, Read.val_main_v81_apply, Read.val_main_v80_apply, Read.val_main_v79_apply,
    Read.val_main_v78_apply, v77_one, v76_sig, v65_hState x0 x1 x2 x3 x4 x5 x6 x7 x8 x9 x10 x11 x12 x13 x14 x15, row_at x1 i]; rfl

end Stages

/-- The reference's third result is the specification's new time cell. -/
theorem tOut_eq (x0 x1 x2 x3 : B) (x4 : W) (x5 : V) (x6 : W) (x7 : V) (x8 : W) (x9 : V) (x10 : W) (x11 : V)
    (x12 : Q) (x13 : V) (x14 : Q) (x15 : V) :
    Read.val_main_v39 (F := Ideal) x0 x1 x3 x4 x5 x12 x13
      = Cert.GatedCell.tOutArr (Cert.GatedCell.Params.ofArgs x4 x5 x6 x7 x8 x9 x10 x11 x12 x13 x14 x15) x0 x1 x3 := by
  funext i
  exact v39_tOut x0 x1 x3 x4 x5 x6 x7 x8 x9 x10 x11 x12 x13 x14 x15 i

/-- The reference's second result is the specification's new excited cell. -/
theorem eOut_eq (x0 x1 x2 x3 : B) (x4 : W) (x5 : V) (x6 : W) (x7 : V) (x8 : W) (x9 : V) (x10 : W) (x11 : V)
    (x12 : Q) (x13 : V) (x14 : Q) (x15 : V) :
    Read.val_main_v57 (F := Ideal) x0 x1 x2 x3 x4 x5 x6 x7 x12 x13 x14 x15
      = Cert.GatedCell.eOutArr (Cert.GatedCell.Params.ofArgs x4 x5 x6 x7 x8 x9 x10 x11 x12 x13 x14 x15) x0 x1 x2 x3 := by
  funext i
  exact v57_eOut x0 x1 x2 x3 x4 x5 x6 x7 x8 x9 x10 x11 x12 x13 x14 x15 i

/-- The reference's first result is the specification's new hidden state. -/
theorem hOut_eq (x0 x1 x2 x3 : B) (x4 : W) (x5 : V) (x6 : W) (x7 : V) (x8 : W) (x9 : V) (x10 : W) (x11 : V)
    (x12 : Q) (x13 : V) (x14 : Q) (x15 : V) :
    Read.val_main_v82 (F := Ideal) x0 x1 x2 x3 x4 x5 x8 x9 x10 x11 x12 x13
      = Cert.GatedCell.hOutArr (Cert.GatedCell.Params.ofArgs x4 x5 x6 x7 x8 x9 x10 x11 x12 x13 x14 x15) x0 x1 x2 x3 := by
  funext i
  exact v82_hOut x0 x1 x2 x3 x4 x5 x6 x7 x8 x9 x10 x11 x12 x13 x14 x15 i

end Cert.ReferenceIdeal.RefCell

end
-- ==== Proof.BodyCell.lean ====
/-
  The kernel body at one grid point computes the gated cell on a block of 128 batch rows.

  Each of the three output buffers holds, after the body, one payload: a tree of pointwise vector operations and of
  products `a · Wᵀ` (contraction over axis 1 of both operands, into a zero accumulator) over the twenty input blocks.
  Read at an index `(p, q)`, a product is the contraction `dot W (row p of a) q` of the specification, a broadcast bias
  row is the bias at `q`, a narrowing format change is the identity on extended reals, and the comparison widened to a
  word and converted is the indicator `ind`. Payload by payload, in the order the body computes them, each is the
  specification's function of row `p` of the four state blocks at column `q`.
-/
import proofs.«138929_j4337916969454_1_alg».proof.Proof.Gen.KernelIdeal.Frame
import proofs.«138929_j4337916969454_1_alg».proof.Proof.Cell
import Idealize.ShloMosaic.Lib.ValueIdx
import Idealize.ShloMosaic.Lib.Pipeline.Value
import Idealize.ShloMosaic.PureOps.Ideal.Laws
import Idealize.ShloMosaic.Lib.IdealHost
import Idealize.ShloMosaic.Lib.KernelVsHost

noncomputable section

namespace Cert.KernelIdeal.BodyCell

open Cert.KernelIdeal Cert.KernelIdeal.Gen Cert.GatedCell Idealize.ShloMosaic Idealize.ShloMosaic.ValueIdx

/-! ## A product `a · Wᵀ` read at an index -/

/-- The left operand's row coordinate is the result's row … -/
theorem lhs_0 (i : S128x1024.Idx) (c : dot_S128x1024_S1024x1024_S128x1024_1_1_0_0_n_n.contr.Idx) :
    (dot_S128x1024_S1024x1024_S128x1024_1_1_0_0_n_n.lhsIdx i c 0).val = (i 0).val := by
  unfold DotDims.lhsIdx
  rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
  rfl
/-- … its column coordinate the contraction position … -/
theorem lhs_1 (i : S128x1024.Idx) (c : dot_S128x1024_S1024x1024_S128x1024_1_1_0_0_n_n.contr.Idx) :
    (dot_S128x1024_S1024x1024_S128x1024_1_1_0_0_n_n.lhsIdx i c 1).val = (c ⟨0, by decide⟩).val :=
  dot_S128x1024_S1024x1024_S128x1024_1_1_0_0_n_n.lhsIdx_val_of_single rfl i c
/-- … the right operand's row coordinate is the result's column … -/
theorem rhs_0 (i : S128x1024.Idx) (c : dot_S128x1024_S1024x1024_S128x1024_1_1_0_0_n_n.contr.Idx) :
    (dot_S128x1024_S1024x1024_S128x1024_1_1_0_0_n_n.rhsIdx i c 0).val = (i 1).val := by
  unfold DotDims.rhsIdx
  rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
  rfl
/-- … and its column coordinate the contraction position. -/
theorem rhs_1 (i : S128x1024.Idx) (c : dot_S128x1024_S1024x1024_S128x1024_1_1_0_0_n_n.contr.Idx) :
    (dot_S128x1024_S1024x1024_S128x1024_1_1_0_0_n_n.rhsIdx i c 1).val = (c ⟨0, by decide⟩).val :=
  dot_S128x1024_S1024x1024_S128x1024_1_1_0_0_n_n.rhsIdx_val_of_single rfl i c

/-- The product of a block `a` with the transpose of a square weight `w`, into the zero accumulator, at `(p, q)`: row
    `p` of `a` contracted against row `q` of `w`. -/
theorem matmul_at (a : FVec Ideal S128x1024 .bf16) (w : Vec Ideal S1024x1024 .bf16) (p : Fin 128) (q : Fin 1024) :
    matmul (F := Ideal) dot_S128x1024_S1024x1024_S128x1024_1_1_0_0_n_n none a
        (shapeCast S1024x1024 w shapeCasts_S1024x1024_S1024x1024 : FVec Ideal S1024x1024 .bf16) (constant S128x1024 .f32 0x00000000#32) (ix2 p q)
      = Cert.GatedCell.dot w (fun k => a (ix2 p k)) q := by
  rw [shapeCast_self]
  simp only [matmul]
  rw [Ideal.matmul_constant_zero_apply, ← Equiv.sum_comp (ValueIdx.contrEquiv1 dot_S128x1024_S1024x1024_S128x1024_1_1_0_0_n_n 1024 rfl rfl).symm]
  unfold Cert.GatedCell.dot
  refine Finset.sum_congr rfl fun k _ => ?_
  have hk := ValueIdx.contrEquiv1_symm_val dot_S128x1024_S1024x1024_S128x1024_1_1_0_0_n_n 1024 rfl rfl k
  have el : dot_S128x1024_S1024x1024_S128x1024_1_1_0_0_n_n.lhsIdx (ix2 p q) ((ValueIdx.contrEquiv1 dot_S128x1024_S1024x1024_S128x1024_1_1_0_0_n_n 1024 rfl rfl).symm k) = ix2 p k := funext fun b => Fin.ext (by
    match b with
    | ⟨0, _⟩ => exact lhs_0 _ _
    | ⟨1, _⟩ => exact (lhs_1 _ _).trans hk)
  have er : dot_S128x1024_S1024x1024_S128x1024_1_1_0_0_n_n.rhsIdx (ix2 p q) ((ValueIdx.contrEquiv1 dot_S128x1024_S1024x1024_S128x1024_1_1_0_0_n_n 1024 rfl rfl).symm k) = ix2 q k := funext fun b => Fin.ext (by
    match b with
    | ⟨0, _⟩ => exact rhs_0 _ _
    | ⟨1, _⟩ => exact (rhs_1 _ _).trans hk)
  rw [el, er]

/-- A bias kept as one row, broadcast over the block's rows, at `(p, q)`: the bias at `q`. -/
theorem bias_at (b : Vec Ideal S1x1024 .f32) (p : Fin 128) (q : Fin 1024) :
    (broadcastTo S128x1024 (shapeCast S1x1024 b shapeCasts_S1x1024_S1x1024 : FVec Ideal S1x1024 .f32) broadcasts_S1x1024_S128x1024 : FVec Ideal S128x1024 .f32) (ix2 p q)
      = Cert.GatedCell.ofBiasRow b (ix1 q) := by
  rw [shapeCast_self]
  exact broadcastTo_apply b broadcasts_S1x1024_S128x1024 (ix2 p q) (ix2 (0 : Fin 1) q) (fun a => match a with
    | ⟨0, _⟩ => by show (0 : Nat) = if (1 : Nat) = 1 then 0 else _; rw [if_pos rfl]
    | ⟨1, _⟩ => by show q.val = if (1024 : Nat) = 1 then 0 else q.val; rw [if_neg (by decide)])

/-- The product `a · wᵀ` into the zero accumulator, and a bias row broadcast over the block, as the body writes them. -/
abbrev mm (a : FVec Ideal S128x1024 .bf16) (w : Vec Ideal S1024x1024 .bf16) : FVec Ideal S128x1024 .f32 :=
  matmul (F := Ideal) dot_S128x1024_S1024x1024_S128x1024_1_1_0_0_n_n none a
    (shapeCast S1024x1024 w shapeCasts_S1024x1024_S1024x1024 : FVec Ideal S1024x1024 .bf16) (constant S128x1024 .f32 0x00000000#32)
abbrev bb (b : Vec Ideal S1x1024 .f32) : FVec Ideal S128x1024 .f32 :=
  broadcastTo S128x1024 (shapeCast S1x1024 b shapeCasts_S1x1024_S1x1024 : FVec Ideal S1x1024 .f32) broadcasts_S1x1024_S128x1024

theorem mm_at (a : FVec Ideal S128x1024 .bf16) (w : Vec Ideal S1024x1024 .bf16) (p : Fin 128) (q : Fin 1024) :
    mm a w (ix2 p q) = Cert.GatedCell.dot w (fun k => a (ix2 p k)) q := matmul_at a w p q
theorem bb_at (b : Vec Ideal S1x1024 .f32) (p : Fin 128) (q : Fin 1024) :
    bb b (ix2 p q) = Cert.GatedCell.ofBiasRow b (ix1 q) := bias_at b p q

/-! ## The payloads at an index, in the order the body computes them -/

/-- A linear layer over `x` alone, then the logistic function: the initial-energy layer … -/
theorem pay4_at (x : Vec Ideal S128x1024 .f32) (w : Vec Ideal S1024x1024 .bf16) (b : Vec Ideal S1x1024 .f32)
    (p : Fin 128) (q : Fin 1024) :
    k0_pay4 (F := Ideal) x w b (ix2 p q) = Ideal.logistic (lin1 w (ofBiasRow b) (blockRow x p) q) := by
  unfold k0_pay4 k0_pay2
  exact congrArg Ideal.logistic (congrArg₂ (· + ·) (matmul_at _ w p q) (bias_at b p q))

/-- … and the ratio layer. -/
theorem pay5_at (x : Vec Ideal S128x1024 .f32) (w : Vec Ideal S1024x1024 .bf16) (b : Vec Ideal S1x1024 .f32)
    (p : Fin 128) (q : Fin 1024) :
    k0_pay5 (F := Ideal) x w b (ix2 p q) = Ideal.logistic (lin1 w (ofBiasRow b) (blockRow x p) q) := by
  unfold k0_pay5 k0_pay2
  exact congrArg Ideal.logistic (congrArg₂ (· + ·) (matmul_at _ w p q) (bias_at b p q))

/-- A linear layer over the joined row `[x, h]`, its weight in halves: the time layer before its `tanh`. -/
theorem pay6_at (x h : Vec Ideal S128x1024 .f32) (wx wh : Vec Ideal S1024x1024 .bf16) (b : Vec Ideal S1x1024 .f32)
    (p : Fin 128) (q : Fin 1024) :
    k0_pay6 (F := Ideal) x h wx wh b (ix2 p q) = lin2 wx wh (ofBiasRow b) (blockRow x p) (blockRow h p) q := by
  unfold k0_pay6 k0_pay2 k0_pay3
  exact congrArg₂ (· + ·) (congrArg₂ (· + ·) (matmul_at _ wx p q) (matmul_at _ wh p q)) (bias_at b p q)

section Cell

variable (x0 x1 x2 x3 : Vec Ideal S128x1024 .f32) (x4 x5 : Vec Ideal S1024x1024 .bf16) (x6 : Vec Ideal S1x1024 .f32)
  (x7 x8 : Vec Ideal S1024x1024 .bf16) (x9 : Vec Ideal S1x1024 .f32) (x10 x11 : Vec Ideal S1024x1024 .bf16)
  (x12 : Vec Ideal S1x1024 .f32) (x13 x14 : Vec Ideal S1024x1024 .bf16) (x15 : Vec Ideal S1x1024 .f32)
  (x16 : Vec Ideal S1024x1024 .bf16) (x17 : Vec Ideal S1x1024 .f32) (x18 : Vec Ideal S1024x1024 .bf16)
  (x19 : Vec Ideal S1x1024 .f32) (p : Fin 128) (q : Fin 1024)

local notation "𝐏" => Params.ofBlocks x4 x5 x6 x7 x8 x9 x10 x11 x12 x13 x14 x15 x16 x17 x18 x19
local notation "𝐫" => k0_pay5 (F := Ideal) x0 x16 x17
local notation "𝐮" => k0_pay6 (F := Ideal) x0 x1 x4 x5 x6

/-- The new time cell before the leap. -/
theorem pay7_at : k0_pay7 (F := Ideal) x3 𝐫 𝐮 (ix2 p q) = tNew 𝐏 (blockRow x0 p) (blockRow x1 p) (blockRow x3 p) q := by
  unfold k0_pay7
  show 𝐫 (ix2 p q) * max (x3 (ix2 p q) + Ideal.tanh (𝐮 (ix2 p q))) (Ideal.ofBits .f32 0x00000000#32)
      - Ideal.ofBits .f32 0x3F800000#32 = _
  rw [pay5_at, pay6_at, Ideal.ofBits_zero_f32, Ideal.ofBits_one_f32]
  rfl

/-- The leap: the comparison `tNew ≤ 0`, widened to a word and converted, is the indicator. -/
theorem pay8_at : k0_pay8 (F := Ideal) x3 𝐫 𝐮 (ix2 p q) = leap 𝐏 (blockRow x0 p) (blockRow x1 p) (blockRow x3 p) q := by
  unfold k0_pay8
  show (((((Ideal.cmp .ole (k0_pay7 (F := Ideal) x3 𝐫 𝐮 (ix2 p q)) (Ideal.ofBits .f32 0x00000000#32)).setWidth 32).toInt : ℤ) : ℝ) : EReal) = _
  rw [pay7_at, Ideal.ofBits_zero_f32, toInt_setWidth_bit]
  unfold leap ind
  norm_cast

/-- The new time cell. -/
theorem pay9_at : k0_pay9 (F := Ideal) x3 𝐫 𝐮 (ix2 p q) = tOut 𝐏 (blockRow x0 p) (blockRow x1 p) (blockRow x3 p) q := by
  unfold k0_pay9
  show (Ideal.ofBits .f32 0x3F800000#32 - k0_pay8 (F := Ideal) x3 𝐫 𝐮 (ix2 p q)) * k0_pay7 (F := Ideal) x3 𝐫 𝐮 (ix2 p q) = _
  rw [pay8_at, pay7_at, Ideal.ofBits_one_f32]
  rfl

/-- The energy the leap releases. -/
theorem pay10_at : k0_pay10 (F := Ideal) x2 x3 𝐫 𝐮 (ix2 p q)
    = energy 𝐏 (blockRow x0 p) (blockRow x1 p) (blockRow x2 p) (blockRow x3 p) q := by
  unfold k0_pay10
  show k0_pay8 (F := Ideal) x3 𝐫 𝐮 (ix2 p q) * x2 (ix2 p q) = _
  rw [pay8_at]
  rfl

/-- The new excited cell. -/
theorem pay11_at : k0_pay11 (F := Ideal) x2 x3 (k0_pay2 x0) (k0_pay3 x1) (k0_pay4 x0 x18 x19) 𝐫 𝐮 x7 x8 x9 (ix2 p q)
    = eOut 𝐏 (blockRow x0 p) (blockRow x1 p) (blockRow x2 p) (blockRow x3 p) q := by
  unfold k0_pay11
  show x2 (ix2 p q) - k0_pay10 (F := Ideal) x2 x3 𝐫 𝐮 (ix2 p q)
      + k0_pay4 (F := Ideal) x0 x18 x19 (ix2 p q) * (Ideal.ofBits .f32 0x3F800000#32 - k0_pay8 (F := Ideal) x3 𝐫 𝐮 (ix2 p q))
      + Ideal.logistic (mm (k0_pay2 x0) x7 (ix2 p q) + mm (k0_pay3 x1) x8 (ix2 p q) + bb x9 (ix2 p q)) = _
  rw [pay10_at, pay4_at, pay8_at, mm_at, mm_at, bb_at, Ideal.ofBits_one_f32]
  rfl

/-- The state layer's product against `x` … -/
theorem pay12_at : k0_pay12 (F := Ideal) (k0_pay2 x0) x10 (ix2 p q) = Cert.GatedCell.dot x10 (blockRow x0 p) q := by
  unfold k0_pay12
  exact matmul_at _ x10 p q

/-- … and against the row `h · energy`. -/
theorem pay13_at : k0_pay13 (F := Ideal) x1 x2 x3 𝐫 𝐮 x11 (ix2 p q)
    = Cert.GatedCell.dot x11 (fun k => blockRow x1 p k * energy 𝐏 (blockRow x0 p) (blockRow x1 p) (blockRow x2 p) (blockRow x3 p) k) q := by
  unfold k0_pay13
  refine (matmul_at _ x11 p q).trans ?_
  refine congrArg (fun r => Cert.GatedCell.dot x11 r q) (funext fun k => ?_)
  show x1 (ix2 p k) * k0_pay10 (F := Ideal) x2 x3 𝐫 𝐮 (ix2 p k) = _
  rw [pay10_at]
  rfl

/-- The new hidden state. -/
theorem pay1_at : k0_pay1 (F := Ideal) x1 (k0_pay2 x0) (k0_pay3 x1) (k0_pay12 (k0_pay2 x0) x10) (k0_pay13 x1 x2 x3 𝐫 𝐮 x11)
      x12 x13 x14 x15 (ix2 p q)
    = hOut 𝐏 (blockRow x0 p) (blockRow x1 p) (blockRow x2 p) (blockRow x3 p) q := by
  unfold k0_pay1
  show Ideal.tanh
      ((Ideal.ofBits .f32 0x3F800000#32
          - Ideal.logistic (mm (k0_pay2 x0) x13 (ix2 p q) + mm (k0_pay3 x1) x14 (ix2 p q) + bb x15 (ix2 p q))) * x1 (ix2 p q)
        + Ideal.logistic (mm (k0_pay2 x0) x13 (ix2 p q) + mm (k0_pay3 x1) x14 (ix2 p q) + bb x15 (ix2 p q))
          * Ideal.tanh (k0_pay12 (F := Ideal) (k0_pay2 x0) x10 (ix2 p q) + k0_pay13 (F := Ideal) x1 x2 x3 𝐫 𝐮 x11 (ix2 p q)
              + bb x12 (ix2 p q))) = _
  rw [pay12_at, pay13_at, mm_at, mm_at, bb_at, bb_at, Ideal.ofBits_one_f32]
  rfl

end Cell

/-! ## The three output buffers after the body -/

/-- The whole-buffer rectangles sit at offset zero. -/
theorem hz : (![0, 0] : Fin 2 → Nat) = fun _ => 0 := funext fun a => by fin_cases a <;> rfl

/-- The third output buffer holds the new time cell of each of the block's rows. -/
theorem out22_eq (x0 x1 x2 x3 : Vec Ideal S128x1024 .f32) (x4 x5 : Vec Ideal S1024x1024 .bf16) (x6 : Vec Ideal S1x1024 .f32)
    (x7 x8 : Vec Ideal S1024x1024 .bf16) (x9 : Vec Ideal S1x1024 .f32) (x10 x11 : Vec Ideal S1024x1024 .bf16)
    (x12 : Vec Ideal S1x1024 .f32) (x13 x14 : Vec Ideal S1024x1024 .bf16) (x15 : Vec Ideal S1x1024 .f32)
    (x16 : Vec Ideal S1024x1024 .bf16) (x17 : Vec Ideal S1x1024 .f32) (x18 : Vec Ideal S1024x1024 .bf16)
    (x19 : Vec Ideal S1x1024 .f32) :
    out0_22 (F := Ideal) x0 x1 x2 x3 x4 x5 x6 x7 x8 x9 x10 x11 x12 x13 x14 x15 x16 x17 x18 x19
      = fun y => tOut (Params.ofBlocks x4 x5 x6 x7 x8 x9 x10 x11 x12 x13 x14 x15 x16 x17 x18 x19)
          (blockRow x0 (y 0)) (blockRow x1 (y 0)) (blockRow x3 (y 0)) (y 1) := by
  unfold out0_22
  rw [View.canon_unit_zero hz]
  simp only [View.ld_unit_zero (S := S128x1024) hz, View.ld_unit_zero (S := S1024x1024) hz, View.ld_unit_zero (S := S1x1024) hz]
  funext y
  obtain ⟨p, q, rfl⟩ : ∃ (p : Fin 128) (q : Fin 1024), y = ix2 p q := ⟨y 0, y 1, eq_ix2 y⟩
  exact pay9_at x0 x1 x3 x4 x5 x6 x7 x8 x9 x10 x11 x12 x13 x14 x15 x16 x17 x18 x19 p q

/-- The second output buffer holds the new excited cell. -/
theorem out21_eq (x0 x1 x2 x3 : Vec Ideal S128x1024 .f32) (x4 x5 : Vec Ideal S1024x1024 .bf16) (x6 : Vec Ideal S1x1024 .f32)
    (x7 x8 : Vec Ideal S1024x1024 .bf16) (x9 : Vec Ideal S1x1024 .f32) (x10 x11 : Vec Ideal S1024x1024 .bf16)
    (x12 : Vec Ideal S1x1024 .f32) (x13 x14 : Vec Ideal S1024x1024 .bf16) (x15 : Vec Ideal S1x1024 .f32)
    (x16 : Vec Ideal S1024x1024 .bf16) (x17 : Vec Ideal S1x1024 .f32) (x18 : Vec Ideal S1024x1024 .bf16)
    (x19 : Vec Ideal S1x1024 .f32) :
    out0_21 (F := Ideal) x0 x1 x2 x3 x4 x5 x6 x7 x8 x9 x10 x11 x12 x13 x14 x15 x16 x17 x18 x19
      = fun y => eOut (Params.ofBlocks x4 x5 x6 x7 x8 x9 x10 x11 x12 x13 x14 x15 x16 x17 x18 x19)
          (blockRow x0 (y 0)) (blockRow x1 (y 0)) (blockRow x2 (y 0)) (blockRow x3 (y 0)) (y 1) := by
  unfold out0_21
  rw [View.canon_unit_zero hz]
  simp only [View.ld_unit_zero (S := S128x1024) hz, View.ld_unit_zero (S := S1024x1024) hz, View.ld_unit_zero (S := S1x1024) hz]
  funext y
  obtain ⟨p, q, rfl⟩ : ∃ (p : Fin 128) (q : Fin 1024), y = ix2 p q := ⟨y 0, y 1, eq_ix2 y⟩
  exact pay11_at x0 x1 x2 x3 x4 x5 x6 x7 x8 x9 x10 x11 x12 x13 x14 x15 x16 x17 x18 x19 p q

/-- The first output buffer holds the new hidden state. -/
theorem out20_eq (x0 x1 x2 x3 : Vec Ideal S128x1024 .f32) (x4 x5 : Vec Ideal S1024x1024 .bf16) (x6 : Vec Ideal S1x1024 .f32)
    (x7 x8 : Vec Ideal S1024x1024 .bf16) (x9 : Vec Ideal S1x1024 .f32) (x10 x11 : Vec Ideal S1024x1024 .bf16)
    (x12 : Vec Ideal S1x1024 .f32) (x13 x14 : Vec Ideal S1024x1024 .bf16) (x15 : Vec Ideal S1x1024 .f32)
    (x16 : Vec Ideal S1024x1024 .bf16) (x17 : Vec Ideal S1x1024 .f32) (x18 : Vec Ideal S1024x1024 .bf16)
    (x19 : Vec Ideal S1x1024 .f32) :
    out0_20 (F := Ideal) x0 x1 x2 x3 x4 x5 x6 x7 x8 x9 x10 x11 x12 x13 x14 x15 x16 x17 x18 x19
      = fun y => hOut (Params.ofBlocks x4 x5 x6 x7 x8 x9 x10 x11 x12 x13 x14 x15 x16 x17 x18 x19)
          (blockRow x0 (y 0)) (blockRow x1 (y 0)) (blockRow x2 (y 0)) (blockRow x3 (y 0)) (y 1) := by
  unfold out0_20
  rw [View.canon_unit_zero hz]
  simp only [View.ld_unit_zero (S := S128x1024) hz, View.ld_unit_zero (S := S1024x1024) hz, View.ld_unit_zero (S := S1x1024) hz]
  funext y
  obtain ⟨p, q, rfl⟩ : ∃ (p : Fin 128) (q : Fin 1024), y = ix2 p q := ⟨y 0, y 1, eq_ix2 y⟩
  exact pay1_at x0 x1 x2 x3 x4 x5 x6 x7 x8 x9 x10 x11 x12 x13 x14 x15 x16 x17 x18 x19 p q

end Cert.KernelIdeal.BodyCell

end
-- ==== Proof.Staged.lean ====
/-
  What the host operations put in the sixteen weight arrays before the one region.

  Each joined weight `[1024, 2048]` is cut in its columns `[0, 1024)` and `[1024, 2048)` and each cut is narrowed to
  the shorter float format; over the extended reals narrowing changes nothing, so the two arrays are the weight's left
  and right halves. The two square weights are narrowed only, so they are themselves. Each bias `[1024]` is laid out
  as one row `[1, 1024]`; entry `(0, j)` of the row is entry `j` of the bias. Hence the cell's parameters read from
  the sixteen arrays are its parameters read from the twelve arguments (`params_eq`).
-/
import proofs.«138929_j4337916969454_1_alg».proof.Proof.Gen.KernelIdeal.Frame
import proofs.«138929_j4337916969454_1_alg».proof.Proof.Cell
import Idealize.ShloMosaic.Lib.Pipeline.Value
import Idealize.ShloMosaic.Lib.ValueIdx
import Idealize.ShloMosaic.Lib.StableHlo.Run

noncomputable section

namespace Cert.KernelIdeal.Staged

open Cert.KernelIdeal Cert.KernelIdeal.Gen Cert.GatedCell Idealize.ShloMosaic Idealize.ShloMosaic.ValueIdx
open Idealize.ShloMosaic.StableHlo Idealize.ShloMosaic.TcCoe

variable (m : (ℓ : Loc nD τ sig) → Buf (Elt Ideal) ℓ)

/-! ## The three host operations, read at an index -/

/-- Columns `[0, 1024)` of a joined weight, narrowed (the identity over the extended reals): its left half. -/
theorem slice_left (W : WideIdx → EReal) :
    ((truncf .bf16 (extractStridedSlice S1024x1024 ![0, 0] W slices_S1024x2048_S1024x1024_0_0 : FVec Ideal S1024x1024 .f32) bitsLt_bf16_f32 : FVec Ideal S1024x1024 .bf16) : SqIdx → EReal) = leftHalf W := by
  funext i
  show extractStridedSlice S1024x1024 ![0, 0] W slices_S1024x2048_S1024x1024_0_0 i = W (ix2 (i 0) (lo (i 1)))
  refine extractStridedSlice_apply (s := S1024x2048) _ _ _ _ _ ?_
  intro a
  match a with
  | ⟨0, _⟩ => show (i 0).val = 0 + (i 0).val; omega
  | ⟨1, _⟩ => show (i 1).val = 0 + (i 1).val; omega

/-- Columns `[1024, 2048)` of a joined weight, narrowed: its right half. -/
theorem slice_right (W : WideIdx → EReal) :
    ((truncf .bf16 (extractStridedSlice S1024x1024 ![0, 1024] W slices_S1024x2048_S1024x1024_0_1024 : FVec Ideal S1024x1024 .f32) bitsLt_bf16_f32 : FVec Ideal S1024x1024 .bf16) : SqIdx → EReal) = rightHalf W := by
  funext i
  show extractStridedSlice S1024x1024 ![0, 1024] W slices_S1024x2048_S1024x1024_0_1024 i = W (ix2 (i 0) (hi (i 1)))
  refine extractStridedSlice_apply (s := S1024x2048) _ _ _ _ _ ?_
  intro a
  match a with
  | ⟨0, _⟩ => show (i 0).val = 0 + (i 0).val; omega
  | ⟨1, _⟩ => show 1024 + (i 1).val = 1024 + (i 1).val; rfl

/-- A square weight narrowed is itself. -/
theorem narrow_self (W : SqIdx → EReal) :
    ((truncf .bf16 (W : FVec Ideal S1024x1024 .f32) bitsLt_bf16_f32 : FVec Ideal S1024x1024 .bf16) : SqIdx → EReal) = W := rfl

/-- A bias laid out as one row `[1, 1024]` and read back as a bias is itself: entry `j` of the bias and entry
    `(0, j)` of the row are at the same row-major position `j`. -/
theorem row_self (b : BiasIdx → EReal) : ofBiasRow (shapeCast S1x1024 b shapeCasts_S1024_S1x1024) = b := by
  funext i
  show shapeCast S1x1024 b shapeCasts_S1024_S1x1024 (ix2 (0 : Fin 1) (i 0)) = b i
  refine shapeCast_apply (s := S1024) _ _ _ _ ?_
  rw [Shape.rowMajor_val_one, Shape.rowMajor_val_two]
  show (i 0).val = 0 * 1024 + (i 0).val
  omega

/-! ## The sixteen arrays the region finds -/

/-- `main_v1` is the left half of `main_arg4`. -/
theorem V_v1 (c : Dev nD) : (V m c main_v1 : SqIdx → EReal) = leftHalf (m ((c : Thread nD τ).loc main_arg4)) := by
  have e : (V m c main_v1 : SqIdx → EReal)
      = (truncf .bf16 (extractStridedSlice S1024x1024 ![0, 0] ((m ((c : Thread nD τ).loc main_arg4)) : WideIdx → EReal) slices_S1024x2048_S1024x1024_0_0 : FVec Ideal S1024x1024 .f32) bitsLt_bf16_f32 : FVec Ideal S1024x1024 .bf16) := by
    dsimp only [Gen.V, Gen.hostOps0]; after_results <;> rfl
  exact e.trans (slice_left _)

/-- `main_v3` is the right half of `main_arg4`. -/
theorem V_v3 (c : Dev nD) : (V m c main_v3 : SqIdx → EReal) = rightHalf (m ((c : Thread nD τ).loc main_arg4)) := by
  have e : (V m c main_v3 : SqIdx → EReal)
      = (truncf .bf16 (extractStridedSlice S1024x1024 ![0, 1024] ((m ((c : Thread nD τ).loc main_arg4)) : WideIdx → EReal) slices_S1024x2048_S1024x1024_0_1024 : FVec Ideal S1024x1024 .f32) bitsLt_bf16_f32 : FVec Ideal S1024x1024 .bf16) := by
    dsimp only [Gen.V, Gen.hostOps0]; after_results <;> rfl
  exact e.trans (slice_right _)

/-- `main_v5` is the left half of `main_arg6`. -/
theorem V_v5 (c : Dev nD) : (V m c main_v5 : SqIdx → EReal) = leftHalf (m ((c : Thread nD τ).loc main_arg6)) := by
  have e : (V m c main_v5 : SqIdx → EReal)
      = (truncf .bf16 (extractStridedSlice S1024x1024 ![0, 0] ((m ((c : Thread nD τ).loc main_arg6)) : WideIdx → EReal) slices_S1024x2048_S1024x1024_0_0 : FVec Ideal S1024x1024 .f32) bitsLt_bf16_f32 : FVec Ideal S1024x1024 .bf16) := by
    dsimp only [Gen.V, Gen.hostOps0]; after_results <;> rfl
  exact e.trans (slice_left _)

/-- `main_v7` is the right half of `main_arg6`. -/
theorem V_v7 (c : Dev nD) : (V m c main_v7 : SqIdx → EReal) = rightHalf (m ((c : Thread nD τ).loc main_arg6)) := by
  have e : (V m c main_v7 : SqIdx → EReal)
      = (truncf .bf16 (extractStridedSlice S1024x1024 ![0, 1024] ((m ((c : Thread nD τ).loc main_arg6)) : WideIdx → EReal) slices_S1024x2048_S1024x1024_0_1024 : FVec Ideal S1024x1024 .f32) bitsLt_bf16_f32 : FVec Ideal S1024x1024 .bf16) := by
    dsimp only [Gen.V, Gen.hostOps0]; after_results <;> rfl
  exact e.trans (slice_right _)

/-- `main_v9` is the left half of `main_arg8`. -/
theorem V_v9 (c : Dev nD) : (V m c main_v9 : SqIdx → EReal) = leftHalf (m ((c : Thread nD τ).loc main_arg8)) := by
  have e : (V m c main_v9 : SqIdx → EReal)
      = (truncf .bf16 (extractStridedSlice S1024x1024 ![0, 0] ((m ((c : Thread nD τ).loc main_arg8)) : WideIdx → EReal) slices_S1024x2048_S1024x1024_0_0 : FVec Ideal S1024x1024 .f32) bitsLt_bf16_f32 : FVec Ideal S1024x1024 .bf16) := by
    dsimp only [Gen.V, Gen.hostOps0]; after_results <;> rfl
  exact e.trans (slice_left _)

/-- `main_v11` is the right half of `main_arg8`. -/
theorem V_v11 (c : Dev nD) : (V m c main_v11 : SqIdx → EReal) = rightHalf (m ((c : Thread nD τ).loc main_arg8)) := by
  have e : (V m c main_v11 : SqIdx → EReal)
      = (truncf .bf16 (extractStridedSlice S1024x1024 ![0, 1024] ((m ((c : Thread nD τ).loc main_arg8)) : WideIdx → EReal) slices_S1024x2048_S1024x1024_0_1024 : FVec Ideal S1024x1024 .f32) bitsLt_bf16_f32 : FVec Ideal S1024x1024 .bf16) := by
    dsimp only [Gen.V, Gen.hostOps0]; after_results <;> rfl
  exact e.trans (slice_right _)

/-- `main_v13` is the left half of `main_arg10`. -/
theorem V_v13 (c : Dev nD) : (V m c main_v13 : SqIdx → EReal) = leftHalf (m ((c : Thread nD τ).loc main_arg10)) := by
  have e : (V m c main_v13 : SqIdx → EReal)
      = (truncf .bf16 (extractStridedSlice S1024x1024 ![0, 0] ((m ((c : Thread nD τ).loc main_arg10)) : WideIdx → EReal) slices_S1024x2048_S1024x1024_0_0 : FVec Ideal S1024x1024 .f32) bitsLt_bf16_f32 : FVec Ideal S1024x1024 .bf16) := by
    dsimp only [Gen.V, Gen.hostOps0]; after_results <;> rfl
  exact e.trans (slice_left _)

/-- `main_v15` is the right half of `main_arg10`. -/
theorem V_v15 (c : Dev nD) : (V m c main_v15 : SqIdx → EReal) = rightHalf (m ((c : Thread nD τ).loc main_arg10)) := by
  have e : (V m c main_v15 : SqIdx → EReal)
      = (truncf .bf16 (extractStridedSlice S1024x1024 ![0, 1024] ((m ((c : Thread nD τ).loc main_arg10)) : WideIdx → EReal) slices_S1024x2048_S1024x1024_0_1024 : FVec Ideal S1024x1024 .f32) bitsLt_bf16_f32 : FVec Ideal S1024x1024 .bf16) := by
    dsimp only [Gen.V, Gen.hostOps0]; after_results <;> rfl
  exact e.trans (slice_right _)

/-- `main_v16` is `main_arg12`. -/
theorem V_v16 (c : Dev nD) : (V m c main_v16 : SqIdx → EReal) = (m ((c : Thread nD τ).loc main_arg12)) := by
  have e : (V m c main_v16 : SqIdx → EReal)
      = (truncf .bf16 ((m ((c : Thread nD τ).loc main_arg12)) : FVec Ideal S1024x1024 .f32) bitsLt_bf16_f32 : FVec Ideal S1024x1024 .bf16) := by
    dsimp only [Gen.V, Gen.hostOps0]; after_results <;> rfl
  exact e.trans (narrow_self _)

/-- `main_v17` is `main_arg14`. -/
theorem V_v17 (c : Dev nD) : (V m c main_v17 : SqIdx → EReal) = (m ((c : Thread nD τ).loc main_arg14)) := by
  have e : (V m c main_v17 : SqIdx → EReal)
      = (truncf .bf16 ((m ((c : Thread nD τ).loc main_arg14)) : FVec Ideal S1024x1024 .f32) bitsLt_bf16_f32 : FVec Ideal S1024x1024 .bf16) := by
    dsimp only [Gen.V, Gen.hostOps0]; after_results <;> rfl
  exact e.trans (narrow_self _)

/-- `main_v18` is `main_arg5` as one row. -/
theorem V_v18 (c : Dev nD) : ofBiasRow (V m c main_v18) = (m ((c : Thread nD τ).loc main_arg5)) := by
  have e : (V m c main_v18 : BiasRowIdx → EReal)
      = shapeCast S1x1024 ((m ((c : Thread nD τ).loc main_arg5)) : BiasIdx → EReal) shapeCasts_S1024_S1x1024 := by
    dsimp only [Gen.V, Gen.hostOps0]; after_results <;> rfl
  rw [e]; exact row_self _

/-- `main_v19` is `main_arg7` as one row. -/
theorem V_v19 (c : Dev nD) : ofBiasRow (V m c main_v19) = (m ((c : Thread nD τ).loc main_arg7)) := by
  have e : (V m c main_v19 : BiasRowIdx → EReal)
      = shapeCast S1x1024 ((m ((c : Thread nD τ).loc main_arg7)) : BiasIdx → EReal) shapeCasts_S1024_S1x1024 := by
    dsimp only [Gen.V, Gen.hostOps0]; after_results <;> rfl
  rw [e]; exact row_self _

/-- `main_v20` is `main_arg9` as one row. -/
theorem V_v20 (c : Dev nD) : ofBiasRow (V m c main_v20) = (m ((c : Thread nD τ).loc main_arg9)) := by
  have e : (V m c main_v20 : BiasRowIdx → EReal)
      = shapeCast S1x1024 ((m ((c : Thread nD τ).loc main_arg9)) : BiasIdx → EReal) shapeCasts_S1024_S1x1024 := by
    dsimp only [Gen.V, Gen.hostOps0]; after_results <;> rfl
  rw [e]; exact row_self _

/-- `main_v21` is `main_arg11` as one row. -/
theorem V_v21 (c : Dev nD) : ofBiasRow (V m c main_v21) = (m ((c : Thread nD τ).loc main_arg11)) := by
  have e : (V m c main_v21 : BiasRowIdx → EReal)
      = shapeCast S1x1024 ((m ((c : Thread nD τ).loc main_arg11)) : BiasIdx → EReal) shapeCasts_S1024_S1x1024 := by
    dsimp only [Gen.V, Gen.hostOps0]; after_results <;> rfl
  rw [e]; exact row_self _

/-- `main_v22` is `main_arg13` as one row. -/
theorem V_v22 (c : Dev nD) : ofBiasRow (V m c main_v22) = (m ((c : Thread nD τ).loc main_arg13)) := by
  have e : (V m c main_v22 : BiasRowIdx → EReal)
      = shapeCast S1x1024 ((m ((c : Thread nD τ).loc main_arg13)) : BiasIdx → EReal) shapeCasts_S1024_S1x1024 := by
    dsimp only [Gen.V, Gen.hostOps0]; after_results <;> rfl
  rw [e]; exact row_self _

/-- `main_v23` is `main_arg15` as one row. -/
theorem V_v23 (c : Dev nD) : ofBiasRow (V m c main_v23) = (m ((c : Thread nD τ).loc main_arg15)) := by
  have e : (V m c main_v23 : BiasRowIdx → EReal)
      = shapeCast S1x1024 ((m ((c : Thread nD τ).loc main_arg15)) : BiasIdx → EReal) shapeCasts_S1024_S1x1024 := by
    dsimp only [Gen.V, Gen.hostOps0]; after_results <;> rfl
  rw [e]; exact row_self _

/-- The cell's parameters from the sixteen arrays the region finds are its parameters from the twelve arguments. -/
theorem params_eq (c : Dev nD) :
    Params.ofBlocks (V m c main_v1) (V m c main_v3) (V m c main_v18) (V m c main_v5) (V m c main_v7) (V m c main_v19)
        (V m c main_v9) (V m c main_v11) (V m c main_v20) (V m c main_v13) (V m c main_v15) (V m c main_v21)
        (V m c main_v16) (V m c main_v22) (V m c main_v17) (V m c main_v23)
      = Params.ofArgs (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  unfold Params.ofBlocks Params.ofArgs
  rw [V_v1 m c, V_v3 m c, V_v5 m c, V_v7 m c, V_v9 m c, V_v11 m c, V_v13 m c, V_v15 m c, V_v16 m c, V_v17 m c,
    V_v18 m c, V_v19 m c, V_v20 m c, V_v21 m c, V_v22 m c, V_v23 m c]

end Cert.KernelIdeal.Staged

end
-- ==== Proof.Arrays.lean ====
/-
  The kernel program's three result arrays as whole-array functions of its arguments.

  The program stages sixteen weight arrays on the host (each joined weight cut into its two halves, each bias laid
  out as one row), then runs one region over a grid of 32 points. Point `t` reads rows `128 t … 128 t + 127` of the
  four batch arrays and every weight whole, computes the cell on those 128 rows, and writes rows `128 t …` of
  the three results. The 32 blocks tile each result, so each result array ends at the cell's array of the
  arguments.
-/
import proofs.«138929_j4337916969454_1_alg».proof.Proof.Gen.KernelIdeal.Value
import proofs.«138929_j4337916969454_1_alg».proof.Proof.Cell
import proofs.«138929_j4337916969454_1_alg».proof.Proof.BodyCell
import proofs.«138929_j4337916969454_1_alg».proof.Proof.Staged
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Value Cert.GatedCell

variable (m : (ℓ : Loc nD τ sig) → Buf (Elt Ideal) ℓ) (ρ : Dev nD → PrngReg)

/-- The grid has 32 points: one per block of 128 batch rows. -/
theorem N32 : cfg0.N = 32 := N_0

theorem lt32 (t : Fin cfg0.N) : t.val < 32 := N32 ▸ t.isLt

/-- The block of 128 rows of a batch array that grid point `t` works on: rows `128 t … 128 t + 127`. -/
def rows (A : BatchIdx → EReal) (t : Fin cfg0.N) : BlockIdx → EReal := blockOf A ⟨t.val, lt32 t⟩

/-- The cell's parameters from the launch memory's twelve weight arguments. -/
def params (c : Dev nD) : Params :=
  Params.ofArgs (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11))
    (m ((c : Thread nD τ).loc main_arg12)) (m ((c : Thread nD τ).loc main_arg13))
    (m ((c : Thread nD τ).loc main_arg14)) (m ((c : Thread nD τ).loc main_arg15))

/-- The index maps, decided over the 32 points. The four batch inputs and the three outputs move together: point
    `t` takes block row `t`, block column 0. -/
theorem batch_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_20.index t (0 : Fin 2) = t.val ∧ win0_20.index t (1 : Fin 2) = 0
    ∧ win0_21.index t (0 : Fin 2) = t.val ∧ win0_21.index t (1 : Fin 2) = 0
    ∧ win0_22.index t (0 : Fin 2) = t.val ∧ win0_22.index t (1 : Fin 2) = 0 :=
  (by decide +kernel : ∀ t : Fin grid0.N, _)

/-- Every weight and bias window stays at block (0, 0) at every point. -/
theorem weight_idx : ∀ t : Fin cfg0.N,
    win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0]
    ∧ win0_16.index t = ![0, 0] ∧ win0_17.index t = ![0, 0] ∧ win0_18.index t = ![0, 0] ∧ win0_19.index t = ![0, 0] :=
  (by decide +kernel : ∀ t : Fin grid0.N, _)

/-- An index map at the origin puts the block at offset zero on both axes, whatever the block's sizes. -/
theorem origin {idx : Fin 2 → Nat} (h : idx = ![0, 0]) (sz : Fin 2 → Nat) : (fun a => idx a * sz a) = fun _ => 0 := by
  subst h; funext a; fin_cases a <;> simp

/-! ## The input windows' blocks

A batch input's block at point `t` is rows `128 t …` of the argument array (a block's coordinate on an axis is
index × size + the coordinate inside the block). A weight's or a bias's block has the array's own sizes and sits
at offset zero, so reading it gives the whole array the host operations staged. -/

theorem blockX (c : Dev nD) (t : Fin cfg0.N) :
    (iblk m c 0 t : BlockIdx → EReal) = rows (m ((c : Thread nD τ).loc main_arg0)) t := by
  funext y
  unfold iblk
  rw [View.read_apply]
  show V m c main_arg0 _ = _
  rw [V_main_arg0]
  unfold rows blockOf
  obtain ⟨e0, e1, -⟩ := batch_idx t
  congr 1
  funext a
  apply Fin.ext
  match a with
  | ⟨0, _⟩ => show win0_0.index t (0 : Fin 2) * 128 + 1 * (y 0).val = 128 * t.val + (y 0).val; rw [e0]; omega
  | ⟨1, _⟩ => show win0_0.index t (1 : Fin 2) * 1024 + 1 * (y 1).val = (y 1).val; rw [e1]; omega

theorem blockH (c : Dev nD) (t : Fin cfg0.N) :
    (iblk m c 1 t : BlockIdx → EReal) = rows (m ((c : Thread nD τ).loc main_arg1)) t := by
  funext y
  unfold iblk
  rw [View.read_apply]
  show V m c main_arg1 _ = _
  rw [V_main_arg1]
  unfold rows blockOf
  obtain ⟨-, -, e0, e1, -⟩ := batch_idx t
  congr 1
  funext a
  apply Fin.ext
  match a with
  | ⟨0, _⟩ => show win0_1.index t (0 : Fin 2) * 128 + 1 * (y 0).val = 128 * t.val + (y 0).val; rw [e0]; omega
  | ⟨1, _⟩ => show win0_1.index t (1 : Fin 2) * 1024 + 1 * (y 1).val = (y 1).val; rw [e1]; omega

theorem blockE (c : Dev nD) (t : Fin cfg0.N) :
    (iblk m c 2 t : BlockIdx → EReal) = rows (m ((c : Thread nD τ).loc main_arg2)) t := by
  funext y
  unfold iblk
  rw [View.read_apply]
  show V m c main_arg2 _ = _
  rw [V_main_arg2]
  unfold rows blockOf
  obtain ⟨-, -, -, -, e0, e1, -⟩ := batch_idx t
  congr 1
  funext a
  apply Fin.ext
  match a with
  | ⟨0, _⟩ => show win0_2.index t (0 : Fin 2) * 128 + 1 * (y 0).val = 128 * t.val + (y 0).val; rw [e0]; omega
  | ⟨1, _⟩ => show win0_2.index t (1 : Fin 2) * 1024 + 1 * (y 1).val = (y 1).val; rw [e1]; omega

theorem blockT (c : Dev nD) (t : Fin cfg0.N) :
    (iblk m c 3 t : BlockIdx → EReal) = rows (m ((c : Thread nD τ).loc main_arg3)) t := by
  funext y
  unfold iblk
  rw [View.read_apply]
  show V m c main_arg3 _ = _
  rw [V_main_arg3]
  unfold rows blockOf
  obtain ⟨-, -, -, -, -, -, e0, e1, -⟩ := batch_idx t
  congr 1
  funext a
  apply Fin.ext
  match a with
  | ⟨0, _⟩ => show win0_3.index t (0 : Fin 2) * 128 + 1 * (y 0).val = 128 * t.val + (y 0).val; rw [e0]; omega
  | ⟨1, _⟩ => show win0_3.index t (1 : Fin 2) * 1024 + 1 * (y 1).val = (y 1).val; rw [e1]; omega

/-- The sixteen weight and bias blocks at any point are the staged arrays, so the block's parameters are the
    arguments' parameters. -/
theorem blockParams (c : Dev nD) (t : Fin cfg0.N) :
    Params.ofBlocks (iblk m c 4 t) (iblk m c 5 t) (iblk m c 6 t) (iblk m c 7 t) (iblk m c 8 t) (iblk m c 9 t)
      (iblk m c 10 t) (iblk m c 11 t) (iblk m c 12 t) (iblk m c 13 t) (iblk m c 14 t) (iblk m c 15 t)
      (iblk m c 16 t) (iblk m c 17 t) (iblk m c 18 t) (iblk m c 19 t) = params m c := by
  obtain ⟨h4, h5, h6, h7, h8, h9, h10, h11, h12, h13, h14, h15, h16, h17, h18, h19⟩ := weight_idx t
  have e4 : (iblk m c 4 t : SqIdx → EReal) = (V m c main_v1 : SqIdx → EReal) :=
    Memref.read_access_unit_zero (Elt Ideal) main_v1 (origin h4 _) (fun a => by rw [congrFun (origin h4 _) a]; simp) (V m c main_v1)
  have e5 : (iblk m c 5 t : SqIdx → EReal) = (V m c main_v3 : SqIdx → EReal) :=
    Memref.read_access_unit_zero (Elt Ideal) main_v3 (origin h5 _) (fun a => by rw [congrFun (origin h5 _) a]; simp) (V m c main_v3)
  have e6 : (iblk m c 6 t : BiasRowIdx → EReal) = (V m c main_v18 : BiasRowIdx → EReal) :=
    Memref.read_access_unit_zero (Elt Ideal) main_v18 (origin h6 _) (fun a => by rw [congrFun (origin h6 _) a]; simp) (V m c main_v18)
  have e7 : (iblk m c 7 t : SqIdx → EReal) = (V m c main_v5 : SqIdx → EReal) :=
    Memref.read_access_unit_zero (Elt Ideal) main_v5 (origin h7 _) (fun a => by rw [congrFun (origin h7 _) a]; simp) (V m c main_v5)
  have e8 : (iblk m c 8 t : SqIdx → EReal) = (V m c main_v7 : SqIdx → EReal) :=
    Memref.read_access_unit_zero (Elt Ideal) main_v7 (origin h8 _) (fun a => by rw [congrFun (origin h8 _) a]; simp) (V m c main_v7)
  have e9 : (iblk m c 9 t : BiasRowIdx → EReal) = (V m c main_v19 : BiasRowIdx → EReal) :=
    Memref.read_access_unit_zero (Elt Ideal) main_v19 (origin h9 _) (fun a => by rw [congrFun (origin h9 _) a]; simp) (V m c main_v19)
  have e10 : (iblk m c 10 t : SqIdx → EReal) = (V m c main_v9 : SqIdx → EReal) :=
    Memref.read_access_unit_zero (Elt Ideal) main_v9 (origin h10 _) (fun a => by rw [congrFun (origin h10 _) a]; simp) (V m c main_v9)
  have e11 : (iblk m c 11 t : SqIdx → EReal) = (V m c main_v11 : SqIdx → EReal) :=
    Memref.read_access_unit_zero (Elt Ideal) main_v11 (origin h11 _) (fun a => by rw [congrFun (origin h11 _) a]; simp) (V m c main_v11)
  have e12 : (iblk m c 12 t : BiasRowIdx → EReal) = (V m c main_v20 : BiasRowIdx → EReal) :=
    Memref.read_access_unit_zero (Elt Ideal) main_v20 (origin h12 _) (fun a => by rw [congrFun (origin h12 _) a]; simp) (V m c main_v20)
  have e13 : (iblk m c 13 t : SqIdx → EReal) = (V m c main_v13 : SqIdx → EReal) :=
    Memref.read_access_unit_zero (Elt Ideal) main_v13 (origin h13 _) (fun a => by rw [congrFun (origin h13 _) a]; simp) (V m c main_v13)
  have e14 : (iblk m c 14 t : SqIdx → EReal) = (V m c main_v15 : SqIdx → EReal) :=
    Memref.read_access_unit_zero (Elt Ideal) main_v15 (origin h14 _) (fun a => by rw [congrFun (origin h14 _) a]; simp) (V m c main_v15)
  have e15 : (iblk m c 15 t : BiasRowIdx → EReal) = (V m c main_v21 : BiasRowIdx → EReal) :=
    Memref.read_access_unit_zero (Elt Ideal) main_v21 (origin h15 _) (fun a => by rw [congrFun (origin h15 _) a]; simp) (V m c main_v21)
  have e16 : (iblk m c 16 t : SqIdx → EReal) = (V m c main_v16 : SqIdx → EReal) :=
    Memref.read_access_unit_zero (Elt Ideal) main_v16 (origin h16 _) (fun a => by rw [congrFun (origin h16 _) a]; simp) (V m c main_v16)
  have e17 : (iblk m c 17 t : BiasRowIdx → EReal) = (V m c main_v22 : BiasRowIdx → EReal) :=
    Memref.read_access_unit_zero (Elt Ideal) main_v22 (origin h17 _) (fun a => by rw [congrFun (origin h17 _) a]; simp) (V m c main_v22)
  have e18 : (iblk m c 18 t : SqIdx → EReal) = (V m c main_v17 : SqIdx → EReal) :=
    Memref.read_access_unit_zero (Elt Ideal) main_v17 (origin h18 _) (fun a => by rw [congrFun (origin h18 _) a]; simp) (V m c main_v17)
  have e19 : (iblk m c 19 t : BiasRowIdx → EReal) = (V m c main_v23 : BiasRowIdx → EReal) :=
    Memref.read_access_unit_zero (Elt Ideal) main_v23 (origin h19 _) (fun a => by rw [congrFun (origin h19 _) a]; simp) (V m c main_v23)
  show Params.ofBlocks (iblk m c 4 t : SqIdx → EReal) (iblk m c 5 t : SqIdx → EReal) (iblk m c 6 t : BiasRowIdx → EReal)
      (iblk m c 7 t : SqIdx → EReal) (iblk m c 8 t : SqIdx → EReal) (iblk m c 9 t : BiasRowIdx → EReal)
      (iblk m c 10 t : SqIdx → EReal) (iblk m c 11 t : SqIdx → EReal) (iblk m c 12 t : BiasRowIdx → EReal)
      (iblk m c 13 t : SqIdx → EReal) (iblk m c 14 t : SqIdx → EReal) (iblk m c 15 t : BiasRowIdx → EReal)
      (iblk m c 16 t : SqIdx → EReal) (iblk m c 17 t : BiasRowIdx → EReal) (iblk m c 18 t : SqIdx → EReal)
      (iblk m c 19 t : BiasRowIdx → EReal) = _
  rw [e4, e5, e6, e7, e8, e9, e10, e11, e12, e13, e14, e15, e16, e17, e18, e19]
  exact Cert.KernelIdeal.Staged.params_eq m c

/-! ## What a point writes back

Point `t` writes block `t` of each result array: the body's result at `(p, q)` of the block is the cell on row
`p` of the four input blocks, which is row `128 t + p` of the four argument arrays. -/

/-- Row `128 t + p`, column `q` of a batch array: where index `(p, q)` of point `t`'s block lands. -/
def landing (t : Fin cfg0.N) (y : BlockIdx) : BatchIdx :=
  ix2 (⟨128 * t.val + (y 0).val, by have := lt32 t; have h0 : (y 0).val < 128 := (y 0).isLt; omega⟩ : Fin 4096) (y 1)

theorem embH (t : Fin cfg0.N) (y : BlockIdx) : ((cfg0.win 20).blk t).view.emb y = landing t y := by
  obtain ⟨-, -, -, -, -, -, -, -, e0, e1, -⟩ := batch_idx t
  funext a
  apply Fin.ext
  match a with
  | ⟨0, _⟩ => show win0_20.index t (0 : Fin 2) * 128 + 1 * (y 0).val = 128 * t.val + (y 0).val; rw [e0]; omega
  | ⟨1, _⟩ => show win0_20.index t (1 : Fin 2) * 1024 + 1 * (y 1).val = (y 1).val; rw [e1]; omega

theorem embE (t : Fin cfg0.N) (y : BlockIdx) : ((cfg0.win 21).blk t).view.emb y = landing t y := by
  obtain ⟨-, -, -, -, -, -, -, -, -, -, e0, e1, -⟩ := batch_idx t
  funext a
  apply Fin.ext
  match a with
  | ⟨0, _⟩ => show win0_21.index t (0 : Fin 2) * 128 + 1 * (y 0).val = 128 * t.val + (y 0).val; rw [e0]; omega
  | ⟨1, _⟩ => show win0_21.index t (1 : Fin 2) * 1024 + 1 * (y 1).val = (y 1).val; rw [e1]; omega

theorem embT (t : Fin cfg0.N) (y : BlockIdx) : ((cfg0.win 22).blk t).view.emb y = landing t y := by
  obtain ⟨-, -, -, -, -, -, -, -, -, -, -, -, e0, e1⟩ := batch_idx t
  funext a
  apply Fin.ext
  match a with
  | ⟨0, _⟩ => show win0_22.index t (0 : Fin 2) * 128 + 1 * (y 0).val = 128 * t.val + (y 0).val; rw [e0]; omega
  | ⟨1, _⟩ => show win0_22.index t (1 : Fin 2) * 1024 + 1 * (y 1).val = (y 1).val; rw [e1]; omega

/-- The hidden state: point `t` writes back block `t` of `hOutArr`. -/
theorem flushedH (c : Dev nD) (t : Fin cfg0.N) :
    (dats m 0 c).flushed 20 t = ((cfg0.win 20).blk t).view.read (Elt Ideal)
      (hOutArr (params m c) (m ((c : Thread nD τ).loc main_arg0)) (m ((c : Thread nD τ).loc main_arg1))
        (m ((c : Thread nD τ).loc main_arg2)) (m ((c : Thread nD τ).loc main_arg3))) := by
  rw [Value.flushed20]
  funext y
  show out0_20 (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t) (iblk m c 18 t) (iblk m c 19 t) y
    = hOutArr (params m c) (m ((c : Thread nD τ).loc main_arg0)) (m ((c : Thread nD τ).loc main_arg1))
        (m ((c : Thread nD τ).loc main_arg2)) (m ((c : Thread nD τ).loc main_arg3)) (((cfg0.win 20).blk t).view.emb y)
  refine ((congrFun (Cert.KernelIdeal.BodyCell.out20_eq (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t) (iblk m c 18 t) (iblk m c 19 t)) y).trans ?_).trans
    (congrArg (hOutArr (params m c) (m ((c : Thread nD τ).loc main_arg0)) (m ((c : Thread nD τ).loc main_arg1))
        (m ((c : Thread nD τ).loc main_arg2)) (m ((c : Thread nD τ).loc main_arg3))) (embH t y)).symm
  show hOut (Params.ofBlocks (iblk m c 4 t) (iblk m c 5 t) (iblk m c 6 t) (iblk m c 7 t) (iblk m c 8 t) (iblk m c 9 t)
      (iblk m c 10 t) (iblk m c 11 t) (iblk m c 12 t) (iblk m c 13 t) (iblk m c 14 t) (iblk m c 15 t)
      (iblk m c 16 t) (iblk m c 17 t) (iblk m c 18 t) (iblk m c 19 t))
      (blockRow (iblk m c 0 t) (y 0)) (blockRow (iblk m c 1 t) (y 0)) (blockRow (iblk m c 2 t) (y 0))
      (blockRow (iblk m c 3 t) (y 0)) (y 1)
    = hOut (params m c) (blockRow (rows (m ((c : Thread nD τ).loc main_arg0)) t) (y 0))
      (blockRow (rows (m ((c : Thread nD τ).loc main_arg1)) t) (y 0))
      (blockRow (rows (m ((c : Thread nD τ).loc main_arg2)) t) (y 0))
      (blockRow (rows (m ((c : Thread nD τ).loc main_arg3)) t) (y 0)) (y 1)
  rw [blockParams m c t, blockX m c t, blockH m c t, blockE m c t, blockT m c t]

/-- The excited cell: point `t` writes back block `t` of `eOutArr`. -/
theorem flushedE (c : Dev nD) (t : Fin cfg0.N) :
    (dats m 0 c).flushed 21 t = ((cfg0.win 21).blk t).view.read (Elt Ideal)
      (eOutArr (params m c) (m ((c : Thread nD τ).loc main_arg0)) (m ((c : Thread nD τ).loc main_arg1))
        (m ((c : Thread nD τ).loc main_arg2)) (m ((c : Thread nD τ).loc main_arg3))) := by
  rw [Value.flushed21]
  funext y
  show out0_21 (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t) (iblk m c 18 t) (iblk m c 19 t) y
    = eOutArr (params m c) (m ((c : Thread nD τ).loc main_arg0)) (m ((c : Thread nD τ).loc main_arg1))
        (m ((c : Thread nD τ).loc main_arg2)) (m ((c : Thread nD τ).loc main_arg3)) (((cfg0.win 21).blk t).view.emb y)
  refine ((congrFun (Cert.KernelIdeal.BodyCell.out21_eq (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t) (iblk m c 18 t) (iblk m c 19 t)) y).trans ?_).trans
    (congrArg (eOutArr (params m c) (m ((c : Thread nD τ).loc main_arg0)) (m ((c : Thread nD τ).loc main_arg1))
        (m ((c : Thread nD τ).loc main_arg2)) (m ((c : Thread nD τ).loc main_arg3))) (embE t y)).symm
  show eOut (Params.ofBlocks (iblk m c 4 t) (iblk m c 5 t) (iblk m c 6 t) (iblk m c 7 t) (iblk m c 8 t) (iblk m c 9 t)
      (iblk m c 10 t) (iblk m c 11 t) (iblk m c 12 t) (iblk m c 13 t) (iblk m c 14 t) (iblk m c 15 t)
      (iblk m c 16 t) (iblk m c 17 t) (iblk m c 18 t) (iblk m c 19 t))
      (blockRow (iblk m c 0 t) (y 0)) (blockRow (iblk m c 1 t) (y 0)) (blockRow (iblk m c 2 t) (y 0))
      (blockRow (iblk m c 3 t) (y 0)) (y 1)
    = eOut (params m c) (blockRow (rows (m ((c : Thread nD τ).loc main_arg0)) t) (y 0))
      (blockRow (rows (m ((c : Thread nD τ).loc main_arg1)) t) (y 0))
      (blockRow (rows (m ((c : Thread nD τ).loc main_arg2)) t) (y 0))
      (blockRow (rows (m ((c : Thread nD τ).loc main_arg3)) t) (y 0)) (y 1)
  rw [blockParams m c t, blockX m c t, blockH m c t, blockE m c t, blockT m c t]

/-- The time cell: point `t` writes back block `t` of `tOutArr`. -/
theorem flushedT (c : Dev nD) (t : Fin cfg0.N) :
    (dats m 0 c).flushed 22 t = ((cfg0.win 22).blk t).view.read (Elt Ideal)
      (tOutArr (params m c) (m ((c : Thread nD τ).loc main_arg0)) (m ((c : Thread nD τ).loc main_arg1))
        (m ((c : Thread nD τ).loc main_arg3))) := by
  rw [Value.flushed22]
  funext y
  show out0_22 (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t) (iblk m c 18 t) (iblk m c 19 t) y
    = tOutArr (params m c) (m ((c : Thread nD τ).loc main_arg0)) (m ((c : Thread nD τ).loc main_arg1))
        (m ((c : Thread nD τ).loc main_arg3)) (((cfg0.win 22).blk t).view.emb y)
  refine ((congrFun (Cert.KernelIdeal.BodyCell.out22_eq (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t) (iblk m c 18 t) (iblk m c 19 t)) y).trans ?_).trans
    (congrArg (tOutArr (params m c) (m ((c : Thread nD τ).loc main_arg0)) (m ((c : Thread nD τ).loc main_arg1))
        (m ((c : Thread nD τ).loc main_arg3))) (embT t y)).symm
  show tOut (Params.ofBlocks (iblk m c 4 t) (iblk m c 5 t) (iblk m c 6 t) (iblk m c 7 t) (iblk m c 8 t) (iblk m c 9 t)
      (iblk m c 10 t) (iblk m c 11 t) (iblk m c 12 t) (iblk m c 13 t) (iblk m c 14 t) (iblk m c 15 t)
      (iblk m c 16 t) (iblk m c 17 t) (iblk m c 18 t) (iblk m c 19 t))
      (blockRow (iblk m c 0 t) (y 0)) (blockRow (iblk m c 1 t) (y 0)) (blockRow (iblk m c 3 t) (y 0)) (y 1)
    = tOut (params m c) (blockRow (rows (m ((c : Thread nD τ).loc main_arg0)) t) (y 0))
      (blockRow (rows (m ((c : Thread nD τ).loc main_arg1)) t) (y 0))
      (blockRow (rows (m ((c : Thread nD τ).loc main_arg3)) t) (y 0)) (y 1)
  rw [blockParams m c t, blockX m c t, blockH m c t, blockT m c t]

/-! ## The 32 blocks tile each result array

Row `r` of a result array lies in the block of point `r / 128`; every point writes back. -/

/-- The point whose block holds row `r`. -/
def pointOf (i : BatchIdx) : Fin cfg0.N :=
  ⟨(i 0).val / 128, by rw [N32]; have h0 : (i 0).val < 4096 := (i 0).isLt; omega⟩

theorem coverH (i : BatchIdx) :
    ∃ t : Fin cfg0.N, (cfg0.win 20).flush t = true ∧ i ∈ ((cfg0.win 20).blk t).view.set := by
  have hi0 : (i 0).val < 4096 := (i 0).isLt
  have hi1 : (i 1).val < 1024 := (i 1).isLt
  have ht : (pointOf i).val = (i 0).val / 128 := rfl
  obtain ⟨-, -, -, -, -, -, -, -, e0, e1, -⟩ := batch_idx (pointOf i)
  refine ⟨pointOf i, flush0_20 _, ?_⟩
  show i ∈ ((View.whole main_v24_0).slice (win0_20.rect (pointOf i))).set
  rw [View.set_slice_whole, Rect.mem_set_unit]
  intro a
  match a with
  | ⟨0, _⟩ =>
    show win0_20.index (pointOf i) (0 : Fin 2) * 128 ≤ (i 0).val ∧ (i 0).val < win0_20.index (pointOf i) (0 : Fin 2) * 128 + 128
    rw [e0, ht]; omega
  | ⟨1, _⟩ =>
    show win0_20.index (pointOf i) (1 : Fin 2) * 1024 ≤ (i 1).val ∧ (i 1).val < win0_20.index (pointOf i) (1 : Fin 2) * 1024 + 1024
    rw [e1]; omega

theorem coverE (i : BatchIdx) :
    ∃ t : Fin cfg0.N, (cfg0.win 21).flush t = true ∧ i ∈ ((cfg0.win 21).blk t).view.set := by
  have hi0 : (i 0).val < 4096 := (i 0).isLt
  have hi1 : (i 1).val < 1024 := (i 1).isLt
  have ht : (pointOf i).val = (i 0).val / 128 := rfl
  obtain ⟨-, -, -, -, -, -, -, -, -, -, e0, e1, -⟩ := batch_idx (pointOf i)
  refine ⟨pointOf i, flush0_21 _, ?_⟩
  show i ∈ ((View.whole main_v24_1).slice (win0_21.rect (pointOf i))).set
  rw [View.set_slice_whole, Rect.mem_set_unit]
  intro a
  match a with
  | ⟨0, _⟩ =>
    show win0_21.index (pointOf i) (0 : Fin 2) * 128 ≤ (i 0).val ∧ (i 0).val < win0_21.index (pointOf i) (0 : Fin 2) * 128 + 128
    rw [e0, ht]; omega
  | ⟨1, _⟩ =>
    show win0_21.index (pointOf i) (1 : Fin 2) * 1024 ≤ (i 1).val ∧ (i 1).val < win0_21.index (pointOf i) (1 : Fin 2) * 1024 + 1024
    rw [e1]; omega

theorem coverT (i : BatchIdx) :
    ∃ t : Fin cfg0.N, (cfg0.win 22).flush t = true ∧ i ∈ ((cfg0.win 22).blk t).view.set := by
  have hi0 : (i 0).val < 4096 := (i 0).isLt
  have hi1 : (i 1).val < 1024 := (i 1).isLt
  have ht : (pointOf i).val = (i 0).val / 128 := rfl
  obtain ⟨-, -, -, -, -, -, -, -, -, -, -, -, e0, e1⟩ := batch_idx (pointOf i)
  refine ⟨pointOf i, flush0_22 _, ?_⟩
  show i ∈ ((View.whole main_v24_2).slice (win0_22.rect (pointOf i))).set
  rw [View.set_slice_whole, Rect.mem_set_unit]
  intro a
  match a with
  | ⟨0, _⟩ =>
    show win0_22.index (pointOf i) (0 : Fin 2) * 128 ≤ (i 0).val ∧ (i 0).val < win0_22.index (pointOf i) (0 : Fin 2) * 128 + 128
    rw [e0, ht]; omega
  | ⟨1, _⟩ =>
    show win0_22.index (pointOf i) (1 : Fin 2) * 1024 ≤ (i 1).val ∧ (i 1).val < win0_22.index (pointOf i) (1 : Fin 2) * 1024 + 1024
    rw [e1]; omega

/-- So each result array ends holding the cell's array, whole. -/
theorem finalH (c : Dev nD) : (dats m 0 c).arrAt 20 cfg0.N
    = hOutArr (params m c) (m ((c : Thread nD τ).loc main_arg0)) (m ((c : Thread nD τ).loc main_arg1))
        (m ((c : Thread nD τ).loc main_arg2)) (m ((c : Thread nD τ).loc main_arg3)) :=
  (dats m 0 c).arrAt_eq_of_cover 20 _ (fun t _ => flushedH m c t) coverH

theorem finalE (c : Dev nD) : (dats m 0 c).arrAt 21 cfg0.N
    = eOutArr (params m c) (m ((c : Thread nD τ).loc main_arg0)) (m ((c : Thread nD τ).loc main_arg1))
        (m ((c : Thread nD τ).loc main_arg2)) (m ((c : Thread nD τ).loc main_arg3)) :=
  (dats m 0 c).arrAt_eq_of_cover 21 _ (fun t _ => flushedE m c t) coverE

theorem finalT (c : Dev nD) : (dats m 0 c).arrAt 22 cfg0.N
    = tOutArr (params m c) (m ((c : Thread nD τ).loc main_arg0)) (m ((c : Thread nD τ).loc main_arg1))
        (m ((c : Thread nD τ).loc main_arg3)) :=
  (dats m 0 c).arrAt_eq_of_cover 22 _ (fun t _ => flushedT m c t) coverT

/-! ## The run, read -/

/-- Every weakly fair execution of the kernel program terminates with the three result arrays at the cell's three
    arrays of the arguments, and the arguments unchanged. -/
theorem run : θ_run defs (onTc (τ := τ) (main (F := Ideal))) ⟨m, fun _ => 0, ρ⟩ fun r => ∀ c : Dev nD,
      r.2.mem ((c : Thread nD τ).loc main_v24_0) = hOutArr (params m c) (m ((c : Thread nD τ).loc main_arg0)) (m ((c : Thread nD τ).loc main_arg1))
        (m ((c : Thread nD τ).loc main_arg2)) (m ((c : Thread nD τ).loc main_arg3))
      ∧ r.2.mem ((c : Thread nD τ).loc main_v24_1) = eOutArr (params m c) (m ((c : Thread nD τ).loc main_arg0)) (m ((c : Thread nD τ).loc main_arg1))
        (m ((c : Thread nD τ).loc main_arg2)) (m ((c : Thread nD τ).loc main_arg3))
      ∧ r.2.mem ((c : Thread nD τ).loc main_v24_2) = tOutArr (params m c) (m ((c : Thread nD τ).loc main_arg0)) (m ((c : Thread nD τ).loc main_arg1))
        (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (finalH m c), (h c).2.1.trans (finalE m c),
      (h c).2.2.1.trans (finalT m c), (h c).2.2.2⟩)
    (Value.run_blocks m ρ)

end Cert.KernelIdeal.Arrays

end
-- ==== Proof.Claims.lean ====
/-
  The five claims of the certificate.

  The two kernels' frames are the generated ones. The reference's frame is its run with the three results dropped.
  Nothing was rewritten between the kernel as printed and the kernel read over the extended reals, so there is nothing
  to preserve. The equivalence: over the extended reals both programs end with the gated cell's three arrays (the new
  hidden state, the new excited cell, the new time cell; Cell.lean) of the sixteen arguments. The kernel's side is
  the run that reads its three output arrays as the cell; the reference's side is its run, each result's term read as
  the cell; the two memories agree on the arguments, so the arrays are the same.
-/
import proofs.«138929_j4337916969454_1_alg».proof.Defs
import proofs.«138929_j4337916969454_1_alg».proof.Proof.Gen.Kernel.Frame
import proofs.«138929_j4337916969454_1_alg».proof.Proof.Gen.KernelIdeal.Frame
import proofs.«138929_j4337916969454_1_alg».proof.Proof.Gen.KernelIdeal.Value
import proofs.«138929_j4337916969454_1_alg».proof.Proof.Gen.ReferenceIdeal.Run
import proofs.«138929_j4337916969454_1_alg».proof.Proof.Gen.ReferenceIdeal.Read
import proofs.«138929_j4337916969454_1_alg».proof.Proof.Gen.Pre_finite_inputs
import proofs.«138929_j4337916969454_1_alg».proof.Proof.Cell
import proofs.«138929_j4337916969454_1_alg».proof.Proof.RefCell
import proofs.«138929_j4337916969454_1_alg».proof.Proof.Arrays

noncomputable section

/-! ## The reference's run, its three results read as the cell -/

namespace Cert.Proof.Claims

open Idealize.ShloMosaic Idealize.ShloMosaic.TcCoe Idealize.SL.Sem Cert.GatedCell

section Reference

variable (m' : (ℓ : Loc Cert.ReferenceIdeal.nD Cert.ReferenceIdeal.τ Cert.ReferenceIdeal.sig) → Buf (Elt Ideal) ℓ)
  (ρ' : Dev Cert.ReferenceIdeal.nD → PrngReg)

/-- The cell's parameters read from the reference's twelve weight arguments. -/
def refParams (c : Dev Cert.ReferenceIdeal.nD) : Params := Params.ofArgs (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))

/-- The reference ends with the cell's three arrays of its arguments, and the arguments as they were. -/
theorem ref_run : θ_run Cert.ReferenceIdeal.defs (onTc (τ := Cert.ReferenceIdeal.τ) (Cert.ReferenceIdeal.main (F := Ideal))) ⟨m', fun _ => 0, ρ'⟩
    fun r => ∀ c : Dev Cert.ReferenceIdeal.nD,
      r.2.mem ((c.tc : Thread Cert.ReferenceIdeal.nD Cert.ReferenceIdeal.τ).loc Cert.ReferenceIdeal.main_v82) = hOutArr (refParams m' c) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v57) = eOutArr (refParams m' c) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v39) = tOutArr (refParams m' c) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15) :=
  (θ_run Cert.ReferenceIdeal.defs _ _).mono (fun _ h c =>
    ⟨(h c).1.trans ((Cert.ReferenceIdeal.Read.val_main_v82_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))).trans
        (Cert.ReferenceIdeal.RefCell.hOut_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)))),
     (h c).2.1.trans ((Cert.ReferenceIdeal.Read.val_main_v57_eq (F := Ideal) m' c).trans
        (Cert.ReferenceIdeal.RefCell.eOut_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)))),
     (h c).2.2.1.trans ((Cert.ReferenceIdeal.Read.val_main_v39_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))).trans
        (Cert.ReferenceIdeal.RefCell.tOut_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)))),
     (h c).2.2.2⟩)
    (Cert.ReferenceIdeal.Value.run (F := Ideal) m' ρ')

end Reference

/-! ## The claims -/

/-- The kernel as printed runs and keeps its arguments: the generated frame. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and keeps its arguments: its run, the three results dropped. -/
theorem frame_r : Cert.frame_ReferenceIdeal := fun m ρ _ =>
  (θ_run Cert.ReferenceIdeal.defs _ _).mono (fun _ h c => (h c).2.2.2) (Cert.ReferenceIdeal.Value.run (F := Ideal) m ρ)

/-- The idealization rewrote no operation: nothing to preserve. -/
theorem preserves : Cert.preserves_Kernel_KernelIdeal := trivial

/-- Over the extended reals, from memories that agree on the sixteen arguments, the kernel and the reference both
    end with the cell's three arrays of those arguments: the new hidden state, the new excited cell and the new time
    cell, row by row (`hOutArr`, `eOutArr`, `tOutArr` at the parameters read from the arguments). The kernel's side is
    its run; the reference's side is its run with the agreeing arguments exchanged. -/
theorem algebraic : Cert.algebraic_KernelIdeal_ReferenceIdeal := by
  intro m ρ m' ρ' _ hagree
  refine ⟨_, _, _, Cert.KernelIdeal.Arrays.run m ρ, ?_⟩
  refine (θ_run Cert.ReferenceIdeal.defs _ _).mono (fun _ h c => ?_) (ref_run m' ρ')
  obtain ⟨a0, a1, a2, a3, a4, a5, a6, a7, a8, a9, a10, a11, a12, a13, a14, a15⟩ := hagree c
  have hp : refParams m' c = Cert.KernelIdeal.Arrays.params m c := by
    unfold refParams Cert.KernelIdeal.Arrays.params
    rw [a4, a5, a6, a7, a8, a9, a10, a11, a12, a13, a14, a15]
  obtain ⟨h0, h1, h2, hkept⟩ := h c
  refine ⟨h0.trans ?_, h1.trans ?_, h2.trans ?_, hkept⟩
  · rw [hp, a0, a1, a2, a3]
  · rw [hp, a0, a1, a2, a3]
  · rw [hp, a0, a1, a3]

end Cert.Proof.Claims

end
-- ==== Proof.lean ====
/-
  A fused recurrent cell against its plain description.

  Both programs take a batch of 4096 rows — an input row `x`, a hidden state `h`, an excited cell `e` and a time
  cell `t`, each 1024 long — and twelve weight arrays, and return the new hidden state, excited cell and time cell:
  six linear layers (four over the joined row `[x, h]`, two over `x`), logistic and tanh gates, a ReLU, and a
  threshold `leap = [tNew ≤ 0]` that resets the time cell and moves the excited cell's energy into the hidden state.

  The kernel cuts every joined weight `W : [1024, 2048]` into its two halves on the host and computes a joined layer
  as `x · W_leftᵀ + h · W_rightᵀ + b`, 128 batch rows at a time; the reference concatenates `[x, h]` and contracts
  over all 2048 columns at once. Over the extended reals a sum over the joined axis is the sum over its left half
  plus the sum over its right half (addition there is commutative and associative, infinities included), so the two
  layers are one function; a change of float format is the identity, the kernel's one-step logistic is the
  reference's `1 / (1 + e⁻ᶻ)`, and the threshold read as a number is 1 or 0 on both sides. Every other operation is
  applied in the same order to the same operands, so no finiteness of the inputs is used.

  `Proof/Cell.lean` states the cell once, row by row; `Proof/BodyCell.lean` shows the kernel's body computes it on a
  block of 128 rows; `Proof/Staged.lean` reads the weight halves the host prepares; `Proof/Arrays.lean` tiles the 32
  blocks into the three result arrays; `Proof/RefCell.lean` shows the reference's operations compute the same three
  arrays; `Proof/Claims.lean` sets the two runs side by side.
-/
import proofs.«138929_j4337916969454_1_alg».proof.Defs
import proofs.«138929_j4337916969454_1_alg».proof.Proof.Gen.Kernel
import proofs.«138929_j4337916969454_1_alg».proof.Proof.Gen.KernelIdeal
import proofs.«138929_j4337916969454_1_alg».proof.Proof.Gen.ReferenceIdeal
import proofs.«138929_j4337916969454_1_alg».proof.Proof.Gen.Pre_finite_inputs
import proofs.«138929_j4337916969454_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_r, Claims.preserves, Claims.algebraic⟩

end Cert.Proof

end
